-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512x512 : Shape := ⟨4, ![4, 64, 512, 512]⟩
abbrev S1024x512 : Shape := ⟨2, ![1024, 512]⟩
abbrev S1024 : Shape := ⟨1, ![1024]⟩
abbrev S64x1024 : Shape := ⟨2, ![64, 1024]⟩
abbrev S512x1024 : Shape := ⟨2, ![512, 1024]⟩
abbrev S1 : Shape := ⟨1, ![1]⟩
abbrev S_ : Shape := ⟨0, ![]⟩

class Facts : Prop where
  bcast_S_S4x64x512x512 : S_.BroadcastsInDim S4x64x512x512 (![] : Fin 0 → Fin S4x64x512x512.rank)
  reducesTo_S4x64x512x512_S_d0_1_2_3 : S4x64x512x512.ReducesTo [0, 1, 2, 3] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512x1024 .f32) (main_arg5 : FVec F S1 .f32) (main_arg6 : FVec F S1 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4x64x512x512 .f32) (main_arg1 : FVec F S1024x512 .f32) (main_arg2 : FVec F S1024 .f32) (main_arg3 : FVec F S64x1024 .f32) (main_arg4 : FVec F S512x1024 .f32) (main_arg5 : FVec F S1 .f32) (main_arg6 : FVec F S1 .f32) : IVec S_ 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  let main_c : IVec S_ 1 := constantI S_ 1 1#1
  let main_v3 : IVec S_ 1 := (fun x v => Host.reduce IntOp.andi x v reducesTo_S4x64x512x512_S_d0_1_2_3 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_v13 main_v16
-- ==== Kernel.lean ====
abbrev S4x64x512x512 : Shape := ⟨4, ![4, 64, 512, 512]⟩
abbrev S1024x512 : Shape := ⟨2, ![1024, 512]⟩
abbrev S1024 : Shape := ⟨1, ![1024]⟩
abbrev S64x1024 : Shape := ⟨2, ![64, 1024]⟩
abbrev S512x1024 : Shape := ⟨2, ![512, 1024]⟩
abbrev S1 : Shape := ⟨1, ![1]⟩
abbrev S1x1 : Shape := ⟨2, ![1, 1]⟩
abbrev S1x1024 : Shape := ⟨2, ![1, 1024]⟩
abbrev S2048x64x1024 : Shape := ⟨3, ![2048, 64, 1024]⟩
abbrev S1x64x64x512 : Shape := ⟨4, ![1, 64, 64, 512]⟩
abbrev S64x64x1024 : Shape := ⟨3, ![64, 64, 1024]⟩
abbrev S64x64x512 : Shape := ⟨3, ![64, 64, 512]⟩
abbrev S4096x512 : Shape := ⟨2, ![4096, 512]⟩
abbrev S4096x1024 : Shape := ⟨2, ![4096, 1024]⟩
abbrev S64x1x1024 : Shape := ⟨3, ![64, 1, 1024]⟩
abbrev S1x64x1024 : Shape := ⟨3, ![1, 64, 1024]⟩
abbrev S4x32768x1024 : Shape := ⟨3, ![4, 32768, 1024]⟩

abbrev nBuf : Space → Nat
  | .hbm => 22
  | .vmem => 8
  | .smem => 0
  | _ => 0

abbrev bufTy : (tb : Table) → Fin (tcTables nBuf tb) → BufTy
  | .hbm, ⟨0, _⟩ => ⟨S4x64x512x512, .f32⟩
  | .hbm, ⟨1, _⟩ => ⟨S1024x512, .f32⟩
  | .hbm, ⟨2, _⟩ => ⟨S1024, .f32⟩
  | .hbm, ⟨3, _⟩ => ⟨S64x1024, .f32⟩
  | .hbm, ⟨4, _⟩ => ⟨S512x1024, .f32⟩
  | .hbm, ⟨5, _⟩ => ⟨S1, .f32⟩
  | .hbm, ⟨6, _⟩ => ⟨S1, .f32⟩
  | .hbm, ⟨7, _⟩ => ⟨S512x1024, .f32⟩
  | .hbm, ⟨8, _⟩ => ⟨S512x1024, .bf16⟩
  | .hbm, ⟨9, _⟩ => ⟨S1x1, .f32⟩
  | .hbm, ⟨10, _⟩ => ⟨S64x1024, .f32⟩
  | .hbm, ⟨11, _⟩ => ⟨S64x1024, .f32⟩
  | .hbm, ⟨12, _⟩ => ⟨S64x1024, .bf16⟩
  | .hbm, ⟨13, _⟩ => ⟨S1x1024, .f32⟩
  | .hbm, ⟨14, _⟩ => ⟨S1x1, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .bf16⟩
  | .hbm, ⟨20, _⟩ => ⟨S2048x64x1024, .f32⟩
  | .hbm, ⟨21, _⟩ => ⟨S4x32768x1024, .f32⟩
  | .local _ .vmem, ⟨0, _⟩ => ⟨S1x64x64x512, .f32⟩
  | .local _ .vmem, ⟨1, _⟩ => ⟨S1x64x64x512, .f32⟩
  | .local _ .vmem, ⟨2, _⟩ => ⟨S512x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x64x1024, .f32⟩
  | .local _ .vmem, ⟨7, _⟩ => ⟨S64x64x1024, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x512_S512x1024_1_0 : S1024x512.Transposes [1, 0] S512x1024
  bitsLt_bf16_f32 : FTy.bits .bf16 < FTy.bits .f32
  bcast_S1_S1x1_1 : S1.BroadcastsInDim S1x1 (![1] : Fin 1 → Fin S1x1.rank)
  bcast_S1x1_S64x1024_0_1 : S1x1.BroadcastsInDim S64x1024 (![0, 1] : Fin 2 → Fin S64x1024.rank)
  bcast_S1024_S1x1024_1 : S1024.BroadcastsInDim S1x1024 (![1] : Fin 1 → Fin S1x1024.rank)
  bcast_S1x1_S512x1024_0_1 : S1x1.BroadcastsInDim S512x1024 (![0, 1] : Fin 2 → Fin S512x1024.rank)
  bcast_S1x1024_S512x1024_0_1 : S1x1024.BroadcastsInDim S512x1024 (![0, 1] : Fin 2 → Fin S512x1024.rank)
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  transposes_S64x64x512_p1_0_2_S64x64x512 : S64x64x512.Transposes [1, 0, 2] S64x64x512
  shapeCasts_S64x64x512_S4096x512 : S64x64x512.ShapeCasts S4096x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S4096x1024_S64x64x1024 : S4096x1024.ShapeCasts S64x64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S64x1024_S64x1x1024 : S64x1024.ShapeCasts S64x1x1024
  broadcasts_S64x1x1024_S64x64x1024 : S64x1x1024.Broadcasts S64x64x1024
  shapeCasts_S64x1024_S1x64x1024 : S64x1024.ShapeCasts S1x64x1024
  broadcasts_S1x64x1024_S64x64x1024 : S1x64x1024.Broadcasts S64x64x1024
  inb_S64x64x1024_S64x64x1024_0_0_0 : ∀ a, (![0, 0, 0] : Fin 3 → Nat) a + S64x64x1024.size a ≤ S64x64x1024.size a
  h_S64x64x1024 : 0 < S64x64x1024.numel
  shapeCasts_S2048x64x1024_S4x32768x1024 : S2048x64x1024.ShapeCasts S4x32768x1024
  dot_S4096x512_S512x1024_S4096x1024_1_0_0_1_n_n_wf : DotDims.WF S4096x512 S512x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S4x64x512x512.size a
  hwx0_0 : ∀ i : grid0.Coords, EltTy.bits .f32 = 32 ∨ (Rect.block (s := S4x64x512x512) S1x64x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .bf16 = 32 ∨ (Rect.block (s := S64x1024) S64x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S512x1024.size a
  hwx0_3 : ∀ i : grid0.Coords, EltTy.bits .bf16 = 32 ∨ (Rect.block (s := S512x1024) S64x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64x1024.size a ≤ S2048x64x1024.size a
  hwx0_4 : ∀ i : grid0.Coords, EltTy.bits .f32 = 32 ∨ (Rect.block (s := S2048x64x1024) S64x64x1024.size (cc0_transform_4 i) (hinb0_4 i)).WholeWords (EltTy.packing .f32)

variable [Facts₀]

def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf

abbrev win0_0 : Pipeline.Window sig grid0 :=
  Pipeline.Window.ofSpec (Memref.whole main_arg0) S1x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S64x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x512x512 : Shape := ⟨4, ![4, 64, 512, 512]⟩
abbrev S1024x512 : Shape := ⟨2, ![1024, 512]⟩
abbrev S1024 : Shape := ⟨1, ![1024]⟩
abbrev S64x1024 : Shape := ⟨2, ![64, 1024]⟩
abbrev S512x1024 : Shape := ⟨2, ![512, 1024]⟩
abbrev S1 : Shape := ⟨1, ![1]⟩
abbrev S4x64x512x1024 : Shape := ⟨4, ![4, 64, 512, 1024]⟩
abbrev S1x1x1x1024 : Shape := ⟨4, ![1, 1, 1, 1024]⟩
abbrev S512 : Shape := ⟨1, ![512]⟩
abbrev S64 : Shape := ⟨1, ![64]⟩
abbrev S_ : Shape := ⟨0, ![]⟩
abbrev S64x1 : Shape := ⟨2, ![64, 1]⟩
abbrev S1x1 : Shape := ⟨2, ![1, 1]⟩
abbrev S1x64x1x1024 : Shape := ⟨4, ![1, 64, 1, 1024]⟩
abbrev S1x1x1x1 : Shape := ⟨4, ![1, 1, 1, 1]⟩
abbrev S512x1 : Shape := ⟨2, ![512, 1]⟩
abbrev S1x1x512x1024 : Shape := ⟨4, ![1, 1, 512, 1024]⟩
abbrev S4x512x64x1024 : Shape := ⟨4, ![4, 512, 64, 1024]⟩
abbrev S4x32768x1024 : Shape := ⟨3, ![4, 32768, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4x64x512x512, .f32⟩
  | .hbm, ⟨1, _⟩ => ⟨S1024x512, .f32⟩
  | .hbm, ⟨2, _⟩ => ⟨S1024, .f32⟩
  | .hbm, ⟨3, _⟩ => ⟨S64x1024, .f32⟩
  | .hbm, ⟨4, _⟩ => ⟨S512x1024, .f32⟩
  | .hbm, ⟨5, _⟩ => ⟨S1, .f32⟩
  | .hbm, ⟨6, _⟩ => ⟨S1, .f32⟩
  | .hbm, ⟨7, _⟩ => ⟨S4x64x512x1024, .f32⟩
  | .hbm, ⟨8, _⟩ => ⟨S1x1x1x1024, .f32⟩
  | .hbm, ⟨9, _⟩ => ⟨S4x64x512x1024, .f32⟩
  | .hbm, ⟨10, _⟩ => ⟨S4x64x512x1024, .f32⟩
  | .hbm, ⟨11, _⟩ => ⟨S512, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S1, .i32⟩
  | .hbm, ⟨22, _⟩ => ⟨S_, .i32⟩
  | .hbm, ⟨23, _⟩ => ⟨S64x1, .i32⟩
  | .hbm, ⟨24, _⟩ => ⟨S64x1, .i1⟩
  | .hbm, ⟨25, _⟩ => ⟨S1x1, .i32⟩
  | .hbm, ⟨26, _⟩ => ⟨S64x1, .i32⟩
  | .hbm, ⟨27, _⟩ => ⟨S64x1, .i1⟩
  | .hbm, ⟨28, _⟩ => ⟨S64x1, .i1⟩
  | .hbm, ⟨29, _⟩ => ⟨S_, .i1⟩
  | .hbm, ⟨30, _⟩ => ⟨S64, .i1⟩
  | .hbm, ⟨31, _⟩ => ⟨S64x1024, .f32⟩
  | .hbm, ⟨32, _⟩ => ⟨S64x1024, .i1⟩
  | .hbm, ⟨33, _⟩ => ⟨S_, .f32⟩
  | .hbm, ⟨34, _⟩ => ⟨S64x1024, .f32⟩
  | .hbm, ⟨35, _⟩ => ⟨S64x1024, .f32⟩
  | .hbm, ⟨36, _⟩ => ⟨S1x64x1x1024, .f32⟩
  | .hbm, ⟨37, _⟩ => ⟨S1x1x1x1, .f32⟩
  | .hbm, ⟨38, _⟩ => ⟨S1x64x1x1024, .f32⟩
  | .hbm, ⟨39, _⟩ => ⟨S1x64x1x1024, .f32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S512x1, .i32⟩
  | .hbm, ⟨48, _⟩ => ⟨S1, .i32⟩
  | .hbm, ⟨49, _⟩ => ⟨S_, .i32⟩
  | .hbm, ⟨50, _⟩ => ⟨S512x1, .i32⟩
  | .hbm, ⟨51, _⟩ => ⟨S512x1, .i1⟩
  | .hbm, ⟨52, _⟩ => ⟨S1x1, .i32⟩
  | .hbm, ⟨53, _⟩ => ⟨S512x1, .i32⟩
  | .hbm, ⟨54, _⟩ => ⟨S512x1, .i1⟩
  | .hbm, ⟨55, _⟩ => ⟨S512x1, .i1⟩
  | .hbm, ⟨56, _⟩ => ⟨S_, .i1⟩
  | .hbm, ⟨57, _⟩ => ⟨S512, .i1⟩
  | .hbm, ⟨58, _⟩ => ⟨S512x1024, .f32⟩
  | .hbm, ⟨59, _⟩ => ⟨S512x1024, .i1⟩
  | .hbm, ⟨60, _⟩ => ⟨S_, .f32⟩
  | .hbm, ⟨61, _⟩ => ⟨S512x1024, .f32⟩
  | .hbm, ⟨62, _⟩ => ⟨S512x1024, .f32⟩
  | .hbm, ⟨63, _⟩ => ⟨S1x1x512x1024, .f32⟩
  | .hbm, ⟨64, _⟩ => ⟨S1x1x1x1, .f32⟩
  | .hbm, ⟨65, _⟩ => ⟨S1x1x512x1024, .f32⟩
  | .hbm, ⟨66, _⟩ => ⟨S1x1x512x1024, .f32⟩
  | .hbm, ⟨67, _⟩ => ⟨S4x64x512x1024, .f32⟩
  | .hbm, ⟨68, _⟩ => ⟨S4x64x512x1024, .f32⟩
  | .hbm, ⟨69, _⟩ => ⟨S4x64x512x1024, .f32⟩
  | .hbm, ⟨70, _⟩ => ⟨S4x64x512x1024, .f32⟩
  | .hbm, ⟨71, _⟩ => ⟨S4x512x64x1024, .f32⟩
  | .hbm, ⟨72, _⟩ => ⟨S4x32768x1024, .f32⟩
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩

abbrev nD : Nat := 1
abbrev τ : Topo := Topo.v7x

variable {F : FTy → Type} [FloatOps F]

class Facts₀ : Prop where
  bcast_S1024_S1x1x1x1024_3 : S1024.BroadcastsInDim S1x1x1x1024 (![3] : Fin 1 → Fin S1x1x1x1024.rank)
  bcast_S1x1x1x1024_S4x64x512x1024_0_1_2_3 : S1x1x1x1024.BroadcastsInDim S4x64x512x1024 (![0, 1, 2, 3] : Fin 4 → Fin S4x64x512x1024.rank)
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S64x1024_0 : S64.BroadcastsInDim S64x1024 (![0] : Fin 1 → Fin S64x1024.rank)
  bcast_S_S64x1024 : S_.BroadcastsInDim S64x1024 (![] : Fin 0 → Fin S64x1024.rank)
  bcast_S64x1024_S1x64x1x1024_1_3 : S64x1024.BroadcastsInDim S1x64x1x1024 (![1, 3] : Fin 2 → Fin S1x64x1x1024.rank)
  bcast_S1_S1x1x1x1_3 : S1.BroadcastsInDim S1x1x1x1 (![3] : Fin 1 → Fin S1x1x1x1.rank)
  bcast_S1x1x1x1_S1x64x1x1024_0_1_2_3 : S1x1x1x1.BroadcastsInDim S1x64x1x1024 (![0, 1, 2, 3] : Fin 4 → Fin S1x64x1x1024.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S512x1024_0 : S512.BroadcastsInDim S512x1024 (![0] : Fin 1 → Fin S512x1024.rank)
  bcast_S_S512x1024 : S_.BroadcastsInDim S512x1024 (![] : Fin 0 → Fin S512x1024.rank)
  bcast_S512x1024_S1x1x512x1024_2_3 : S512x1024.BroadcastsInDim S1x1x512x1024 (![2, 3] : Fin 2 → Fin S1x1x512x1024.rank)
  bcast_S1x1x1x1_S1x1x512x1024_0_1_2_3 : S1x1x1x1.BroadcastsInDim S1x1x512x1024 (![0, 1, 2, 3] : Fin 4 → Fin S1x1x512x1024.rank)
  bcast_S1x64x1x1024_S4x64x512x1024_0_1_2_3 : S1x64x1x1024.BroadcastsInDim S4x64x512x1024 (![0, 1, 2, 3] : Fin 4 → Fin S4x64x512x1024.rank)
  bcast_S1x1x512x1024_S4x64x512x1024_0_1_2_3 : S1x1x512x1024.BroadcastsInDim S4x64x512x1024 (![0, 1, 2, 3] : Fin 4 → Fin S4x64x512x1024.rank)
  transposes_S4x64x512x1024_S4x512x64x1024_0_2_1_3 : S4x64x512x1024.Transposes [0, 2, 1, 3] S4x512x64x1024
  shapeCasts_S4x512x64x1024_S4x32768x1024 : S4x512x64x1024.ShapeCasts S4x32768x1024
  dot_S4x64x512x512_S1024x512_S4x64x512x1024_3_1_012_0_n_n_wf : DotDims.WF S4x64x512x512 S1024x512 S4x64x512x1024 [3] [1] [0, 1, 2] [0] [] []
  gather_S64x1024_S64x1_S64x1024_1_0_n_n_0_1_11024_wf : GatherDims.WF S64x1024 S64x1 S64x1024 [1] [0] [] [0] [] 1 ![1, 1024]
  gather_S512x1024_S512x1_S512x1024_1_0_n_n_0_1_11024_wf : GatherDims.WF S512x1024 S512x1 S512x1024 [1] [0] [] [0] [] 1 ![1, 1024]

variable [Facts₀]

def dot_S4x64x512x512_S1024x512_S4x64x512x1024_3_1_012_0_n_n : DotDims S4x64x512x512 S1024x512 S4x64x512x1024 where
  lhsContracting := [3]
  rhsContracting := [1]
  lhsNonContracting := [0, 1, 2]
  rhsNonContracting := [0]
  lhsBatch := []
  rhsBatch := []
  wf := dot_S4x64x512x512_S1024x512_S4x64x512x1024_3_1_012_0_n_n_wf
def gather_S64x1024_S64x1_S64x1024_1_0_n_n_0_1_11024 : GatherDims S64x1024 S64x1 S64x1024 where
  offsetDims := [1]
  collapsedSliceDims := [0]
  operandBatchingDims := []
  startIndicesBatchingDims := []
  startIndexMap := [0]
  indexVectorDim := 1
  sliceSizes := ![1, 1024]
  wf := gather_S64x1024_S64x1_S64x1024_1_0_n_n_0_1_11024_wf
def gather_S512x1024_S512x1_S512x1024_1_0_n_n_0_1_11024 : GatherDims S512x1024 S512x1 S512x1024 where
  offsetDims := [1]
  collapsedSliceDims := [0]
  operandBatchingDims := []
  startIndicesBatchingDims := []
  startIndexMap := [0]
  indexVectorDim := 1
  sliceSizes := ![1, 1024]
  wf := gather_S512x1024_S512x1_S512x1024_1_0_n_n_0_1_11024_wf

class Facts : Prop extends Facts₀ where

variable [Facts]
-- ==== Proof.Formula.lean ====
/-
  The value both programs compute, as one function of the argument arrays.

  For batch b, time step t, channel c and output feature o,
      entry b t c o = (sum_k x[b,c,t,k] * W[o,k] + (bias[o] + alpha_t * time[t,o])) + alpha_c * chan[c,o],
  and the result array holds entry b t c o at (b, t*64 + c, o). The kernel adds in this order (it folds the bias and
  the scaled time row into one table before the launch); the reference adds the bias, then the scaled channel row,
  then the scaled time row. The two groupings agree on the extended reals by commutativity and associativity of the
  sum and commutativity of the product alone, so no entry has to be finite.
-/
import Idealize.ShloMosaic.PureOps.Ideal
import Idealize.ShloMosaic.Lib.ValueIdx
import Idealize.ShloMosaic.Lib.Pipeline.Value

noncomputable section

namespace Cert.Formula

open Idealize.ShloMosaic Idealize.ShloMosaic.ValueIdx

/-- The projection of the 512 input features at (b, c, t) on output feature o. -/
def proj (x : (⟨4, ![4, 64, 512, 512]⟩ : Shape).Idx → EReal) (W : (⟨2, ![1024, 512]⟩ : Shape).Idx → EReal)
    (b : Fin 4) (c : Fin 64) (t : Fin 512) (o : Fin 1024) : EReal :=
  ∑ k : Fin 512, x (ix4 b c t k) * W (ix2 o k)

/-- One entry of the result, grouped as the kernel adds it. -/
def entry (x : (⟨4, ![4, 64, 512, 512]⟩ : Shape).Idx → EReal) (W : (⟨2, ![1024, 512]⟩ : Shape).Idx → EReal)
    (bias : (⟨1, ![1024]⟩ : Shape).Idx → EReal) (chan : (⟨2, ![64, 1024]⟩ : Shape).Idx → EReal)
    (time : (⟨2, ![512, 1024]⟩ : Shape).Idx → EReal) (gc gt : (⟨1, ![1]⟩ : Shape).Idx → EReal)
    (b : Fin 4) (t : Fin 512) (c : Fin 64) (o : Fin 1024) : EReal :=
  (proj x W b c t o + (bias (ix1 o) + gt (ix1 (0 : Fin 1)) * time (ix2 t o))) + gc (ix1 (0 : Fin 1)) * chan (ix2 c o)

/-- Moving the last summand in front of the one before it and regrouping: sums of extended reals commute and
    associate, infinities included. -/
theorem regroup (P B C T : EReal) : ((P + B) + C) + T = (P + (B + T)) + C := by
  rw [add_right_comm (P + B) C T, add_assoc P B T]

/-- The reference's grouping of an entry is the kernel's. -/
theorem entry_of_reference_order (x : (⟨4, ![4, 64, 512, 512]⟩ : Shape).Idx → EReal) (W : (⟨2, ![1024, 512]⟩ : Shape).Idx → EReal)
    (bias : (⟨1, ![1024]⟩ : Shape).Idx → EReal) (chan : (⟨2, ![64, 1024]⟩ : Shape).Idx → EReal)
    (time : (⟨2, ![512, 1024]⟩ : Shape).Idx → EReal) (gc gt : (⟨1, ![1]⟩ : Shape).Idx → EReal)
    (b : Fin 4) (t : Fin 512) (c : Fin 64) (o : Fin 1024) :
    ((proj x W b c t o + bias (ix1 o)) + chan (ix2 c o) * gc (ix1 (0 : Fin 1))) + time (ix2 t o) * gt (ix1 (0 : Fin 1))
      = entry x W bias chan time gc gt b t c o := by
  unfold entry
  rw [mul_comm (chan (ix2 c o)), mul_comm (time (ix2 t o))]
  exact regroup _ _ _ _

/-- The kernel's output array before the final flattening: row b*512 + t, channel c, feature o. -/
def rows (x : (⟨4, ![4, 64, 512, 512]⟩ : Shape).Idx → EReal) (W : (⟨2, ![1024, 512]⟩ : Shape).Idx → EReal)
    (bias : (⟨1, ![1024]⟩ : Shape).Idx → EReal) (chan : (⟨2, ![64, 1024]⟩ : Shape).Idx → EReal)
    (time : (⟨2, ![512, 1024]⟩ : Shape).Idx → EReal) (gc gt : (⟨1, ![1]⟩ : Shape).Idx → EReal) :
    (⟨3, ![2048, 64, 1024]⟩ : Shape).Idx → EReal := fun i =>
  entry x W bias chan time gc gt
    ⟨(i 0).val / 512, by have h : (i 0).val < 2048 := (i 0).isLt; omega⟩
    ⟨(i 0).val % 512, Nat.mod_lt _ (by decide)⟩ (i 1) (i 2)

/-- The result array: entry b t c o at (b, t*64 + c, o). -/
def result (x : (⟨4, ![4, 64, 512, 512]⟩ : Shape).Idx → EReal) (W : (⟨2, ![1024, 512]⟩ : Shape).Idx → EReal)
    (bias : (⟨1, ![1024]⟩ : Shape).Idx → EReal) (chan : (⟨2, ![64, 1024]⟩ : Shape).Idx → EReal)
    (time : (⟨2, ![512, 1024]⟩ : Shape).Idx → EReal) (gc gt : (⟨1, ![1]⟩ : Shape).Idx → EReal) :
    (⟨3, ![4, 32768, 1024]⟩ : Shape).Idx → EReal := fun i =>
  entry x W bias chan time gc gt (i 0)
    ⟨(i 1).val / 64, by have h : (i 1).val < 32768 := (i 1).isLt; omega⟩
    ⟨(i 1).val % 64, Nat.mod_lt _ (by decide)⟩ (i 2)

/-- An entry depends on its four coordinates as numbers only. -/
theorem entry_congr (x : (⟨4, ![4, 64, 512, 512]⟩ : Shape).Idx → EReal) (W : (⟨2, ![1024, 512]⟩ : Shape).Idx → EReal)
    (bias : (⟨1, ![1024]⟩ : Shape).Idx → EReal) (chan : (⟨2, ![64, 1024]⟩ : Shape).Idx → EReal)
    (time : (⟨2, ![512, 1024]⟩ : Shape).Idx → EReal) (gc gt : (⟨1, ![1]⟩ : Shape).Idx → EReal)
    {b b' : Fin 4} {t t' : Fin 512} {c c' : Fin 64} (o : Fin 1024)
    (hb : b.val = b'.val) (ht : t.val = t'.val) (hc : c.val = c'.val) :
    entry x W bias chan time gc gt b t c o = entry x W bias chan time gc gt b' t' c' o := by
  rw [Fin.ext hb, Fin.ext ht, Fin.ext hc]

/-- Flattening the (row, channel) axes of the kernel's output array: row b*512 + t and channel c land at
    (b, t*64 + c), in row-major order on both sides. -/
theorem flatten_rows (h : (⟨3, ![2048, 64, 1024]⟩ : Shape).ShapeCasts ⟨3, ![4, 32768, 1024]⟩)
    (x : (⟨4, ![4, 64, 512, 512]⟩ : Shape).Idx → EReal) (W : (⟨2, ![1024, 512]⟩ : Shape).Idx → EReal)
    (bias : (⟨1, ![1024]⟩ : Shape).Idx → EReal) (chan : (⟨2, ![64, 1024]⟩ : Shape).Idx → EReal)
    (time : (⟨2, ![512, 1024]⟩ : Shape).Idx → EReal) (gc gt : (⟨1, ![1]⟩ : Shape).Idx → EReal) :
    shapeCast (⟨3, ![4, 32768, 1024]⟩ : Shape) (rows x W bias chan time gc gt) h = result x W bias chan time gc gt := by
  funext i
  have h0 : (i 0).val < 4 := (i 0).isLt
  have h1 : (i 1).val < 32768 := (i 1).isLt
  have h2 : (i 2).val < 1024 := (i 2).isLt
  rw [shapeCast_apply _ h i
    (ix3 (⟨(i 0).val * 512 + (i 1).val / 64, by omega⟩ : Fin 2048) (⟨(i 1).val % 64, by omega⟩ : Fin 64) (i 2)) (by
      rw [Shape.rowMajor_val_three, Shape.rowMajor_val_three]
      show (((i 0).val * 512 + (i 1).val / 64) * 64 + (i 1).val % 64) * 1024 + (i 2).val
        = ((i 0).val * 32768 + (i 1).val) * 1024 + (i 2).val
      omega)]
  unfold rows result
  refine entry_congr x W bias chan time gc gt _ ?_ ?_ rfl
  · show ((i 0).val * 512 + (i 1).val / 64) / 512 = (i 0).val
    omega
  · show ((i 0).val * 512 + (i 1).val / 64) % 512 = (i 1).val / 64
    omega

end Cert.Formula

end
-- ==== Proof.KernelStep.lean ====
/-
  One grid step of the kernel, read at an index.

  A grid step holds 64 time steps of one batch element: the block x[b, :, t0 .. t0+63, :] (channel, time, feature),
  the whole transposed weight (feature, output), the 64 rows of the time table folded with the bias, and the whole
  scaled channel table. It exchanges the channel and time axes of the block, lays the 64*64 (time, channel) pairs out
  as the rows of a 4096 x 512 matrix, multiplies by the weight, and adds the time row and then the channel row.
  So at (time tt, channel c, output o) the step's value is
      (sum_k x[0, c, tt, k] * w[k, o] + tv[tt, o]) + cv[c, o].
  Changes of float format are the identity on extended reals.
-/
import proofs.«124523_g64484638982276_cont_9to1_m_834_26_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Step

open Cert.KernelIdeal Cert.KernelIdeal.Gen Idealize.ShloMosaic Idealize.ShloMosaic.ValueIdx

/-! ## The block product: which operand entries the product at (r, o) multiplies -/

theorem prod_lhs_0 (i : S4096x1024.Idx) (q : dot_S4096x512_S512x1024_S4096x1024_1_0_0_1_n_n.contr.Idx) :
    (dot_S4096x512_S512x1024_S4096x1024_1_0_0_1_n_n.lhsIdx i q 0).val = (i 0).val := by
  unfold DotDims.lhsIdx
  rw [dif_neg (show ¬(0 : Fin S4096x512.rank) ∈ dot_S4096x512_S512x1024_S4096x1024_1_0_0_1_n_n.lhsBatch by decide),
    dif_pos (show (0 : Fin S4096x512.rank) ∈ dot_S4096x512_S512x1024_S4096x1024_1_0_0_1_n_n.lhsNonContracting by decide)]
  rfl

theorem prod_lhs_1 (i : S4096x1024.Idx) (q : dot_S4096x512_S512x1024_S4096x1024_1_0_0_1_n_n.contr.Idx) :
    (dot_S4096x512_S512x1024_S4096x1024_1_0_0_1_n_n.lhsIdx i q 1).val = (q ⟨0, by decide⟩).val :=
  dot_S4096x512_S512x1024_S4096x1024_1_0_0_1_n_n.lhsIdx_val_of_single rfl i q

theorem prod_rhs_0 (i : S4096x1024.Idx) (q : dot_S4096x512_S512x1024_S4096x1024_1_0_0_1_n_n.contr.Idx) :
    (dot_S4096x512_S512x1024_S4096x1024_1_0_0_1_n_n.rhsIdx i q 0).val = (q ⟨0, by decide⟩).val :=
  dot_S4096x512_S512x1024_S4096x1024_1_0_0_1_n_n.rhsIdx_val_of_single rfl i q

theorem prod_rhs_1 (i : S4096x1024.Idx) (q : dot_S4096x512_S512x1024_S4096x1024_1_0_0_1_n_n.contr.Idx) :
    (dot_S4096x512_S512x1024_S4096x1024_1_0_0_1_n_n.rhsIdx i q 1).val = (i 1).val := by
  unfold DotDims.rhsIdx
  rw [dif_neg (show ¬(1 : Fin S512x1024.rank) ∈ dot_S4096x512_S512x1024_S4096x1024_1_0_0_1_n_n.rhsBatch by decide),
    dif_pos (show (1 : Fin S512x1024.rank) ∈ dot_S4096x512_S512x1024_S4096x1024_1_0_0_1_n_n.rhsNonContracting by decide)]
  rfl

/-- The product into a zero accumulator, at row r and column o: the sum over the 512 features of row r of the left
    matrix times column o of the right one. -/
theorem product_apply (a : FVec Ideal S4096x512 .bf16) (w : FVec Ideal S512x1024 .bf16) (r : Fin 4096) (o : Fin 1024) :
    matmul dot_S4096x512_S512x1024_S4096x1024_1_0_0_1_n_n none a w (constant S4096x1024 .f32 0x00000000#32) (ix2 r o)
      = ∑ k : Fin 512, a (ix2 r k) * w (ix2 k o) := by
  show FloatOps.matmul dot_S4096x512_S512x1024_S4096x1024_1_0_0_1_n_n none a w (constant S4096x1024 .f32 0x00000000#32) (ix2 r o) = _
  rw [Ideal.matmul_constant_zero_apply,
    ← Equiv.sum_comp (contrEquiv1 dot_S4096x512_S512x1024_S4096x1024_1_0_0_1_n_n 512 rfl rfl).symm]
  refine Finset.sum_congr rfl fun k _ => ?_
  have hk := contrEquiv1_symm_val dot_S4096x512_S512x1024_S4096x1024_1_0_0_1_n_n 512 rfl rfl k
  have el : dot_S4096x512_S512x1024_S4096x1024_1_0_0_1_n_n.lhsIdx (ix2 r o)
      ((contrEquiv1 dot_S4096x512_S512x1024_S4096x1024_1_0_0_1_n_n 512 rfl rfl).symm k) = ix2 r k :=
    funext fun ax => Fin.ext (by
      match ax with
      | ⟨0, _⟩ => exact prod_lhs_0 _ _
      | ⟨1, _⟩ => exact (prod_lhs_1 _ _).trans hk)
  have er : dot_S4096x512_S512x1024_S4096x1024_1_0_0_1_n_n.rhsIdx (ix2 r o)
      ((contrEquiv1 dot_S4096x512_S512x1024_S4096x1024_1_0_0_1_n_n 512 rfl rfl).symm k) = ix2 k o :=
    funext fun ax => Fin.ext (by
      match ax with
      | ⟨0, _⟩ => exact (prod_rhs_0 _ _).trans hk
      | ⟨1, _⟩ => exact prod_rhs_1 _ _)
  rw [el, er]

/-! ## The layout operations around the product -/

/-- The 4096 product rows read back as (time, channel): row tt*64 + c. -/
theorem rows_as_pairs (p : FVec Ideal S4096x1024 .f32) (tt c : Fin 64) (o : Fin 1024) :
    shapeCast S64x64x1024 p shapeCasts_S4096x1024_S64x64x1024 (ix3 tt c o)
      = p (ix2 (⟨tt.val * 64 + c.val, by have := tt.isLt; have := c.isLt; omega⟩ : Fin 4096) o) :=
  shapeCast_apply p _ _ _ (by
    rw [Shape.rowMajor_val_two, Shape.rowMajor_val_three]
    show (tt.val * 64 + c.val) * 1024 + o.val = (tt.val * 64 + c.val) * 1024 + o.val
    rfl)

/-- The (time, channel) pairs laid out as matrix rows: row tt*64 + c is the pair (tt, c). -/
theorem pairs_as_rows (q : FVec Ideal S64x64x512 .bf16) (tt c : Fin 64) (k : Fin 512) :
    shapeCast S4096x512 q shapeCasts_S64x64x512_S4096x512
        (ix2 (⟨tt.val * 64 + c.val, by have := tt.isLt; have := c.isLt; omega⟩ : Fin 4096) k)
      = q (ix3 tt c k) :=
  shapeCast_apply q _ _ _ (by
    rw [Shape.rowMajor_val_three, Shape.rowMajor_val_two]
    show (tt.val * 64 + c.val) * 512 + k.val = (tt.val * 64 + c.val) * 512 + k.val
    rfl)

/-- The exchange of the block's channel and time axes. -/
theorem exchange_apply (q : FVec Ideal S64x64x512 .bf16) (tt c : Fin 64) (k : Fin 512) :
    transpose S64x64x512 [1, 0, 2] q transposes_S64x64x512_p1_0_2_S64x64x512 (ix3 tt c k) = q (ix3 c tt k) :=
  transpose_apply _ q _ _ _ fun ax => match ax with | ⟨0, _⟩ => rfl | ⟨1, _⟩ => rfl | ⟨2, _⟩ => rfl

/-- A time row laid along the channel axis: the table's row tt as a 64 x 1 x 1024 array. -/
theorem time_rows_apply (v : FVec Ideal S64x1024 .bf16) (tt : Fin 64) (o : Fin 1024) :
    shapeCast S64x1x1024 v shapeCasts_S64x1024_S64x1x1024 (ix3 tt (0 : Fin 1) o) = v (ix2 tt o) :=
  shapeCast_apply v _ _ _ (by
    rw [Shape.rowMajor_val_two, Shape.rowMajor_val_three]
    show tt.val * 1024 + o.val = (tt.val * 1 + 0) * 1024 + o.val
    omega)

/-- The time rows repeated over the 64 channels. -/
theorem over_channels_apply (v : FVec Ideal S64x1x1024 .f32) (tt c : Fin 64) (o : Fin 1024) :
    broadcastTo S64x64x1024 v broadcasts_S64x1x1024_S64x64x1024 (ix3 tt c o) = v (ix3 tt (0 : Fin 1) o) :=
  broadcastTo_apply v _ _ _ fun ax => match ax with
    | ⟨0, _⟩ => rfl
    | ⟨1, _⟩ => rfl
    | ⟨2, _⟩ => rfl

/-- The channel rows repeated over the 64 time steps. -/
theorem over_times_apply (v : FVec Ideal S1x64x1024 .f32) (tt c : Fin 64) (o : Fin 1024) :
    broadcastTo S64x64x1024 v broadcasts_S1x64x1024_S64x64x1024 (ix3 tt c o) = v (ix3 (0 : Fin 1) c o) :=
  broadcastTo_apply v _ _ _ fun ax => match ax with
    | ⟨0, _⟩ => rfl
    | ⟨1, _⟩ => rfl
    | ⟨2, _⟩ => rfl

/-! ## The step's stored value -/

/-- What the step stores at (time tt, channel c, output o). -/
theorem stored_apply (v0 : Vec Ideal S1x64x64x512 .f32) (v5 : Vec Ideal S512x1024 .bf16) (v9 : Vec Ideal S64x1024 .bf16)
    (v15 : Vec Ideal S64x1024 .bf16) (tt c : Fin 64) (o : Fin 1024) :
    k0_pay1 (F := Ideal) v0 v5 v9 v15 (ix3 tt c o)
      = ((∑ k : Fin 512, v0 (ix4 (0 : Fin 1) c tt k) * v5 (ix2 k o)) + v9 (ix2 tt o)) + v15 (ix2 c o) := by
  unfold k0_pay1
  dsimp only
  rw [addf_apply, addf_apply, rows_as_pairs, product_apply, over_channels_apply, extf_apply, time_rows_apply,
    shapeCast_self, over_times_apply, extf_apply, shapeCast_ab_1ab_apply, shapeCast_self, shapeCast_self]
  refine congrArg (fun s => s + v9 (ix2 tt o) + v15 (ix2 c o)) (Finset.sum_congr rfl fun k _ => ?_)
  rw [pairs_as_rows, exchange_apply, truncf_apply, shapeCast_1abc_abc_apply]

end Cert.KernelIdeal.Step

end
-- ==== Proof.KernelTables.lean ====
/-
  The three tables the kernel prepares before the launch, read at an index.

  Before the launch the program transposes the weight (so that the contraction runs down its rows), scales the
  channel table by alpha_c, and adds the bias to the time table scaled by alpha_t:
      weight'[k, o] = W[o, k],   chan'[c, o] = alpha_c * chan[c, o],   time'[t, o] = bias[o] + alpha_t * time[t, o].
  Each is then converted to the short float format, which is the identity on extended reals.
-/
import proofs.«124523_g64484638982276_cont_9to1_m_834_26_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Tables

open Cert.KernelIdeal Cert.KernelIdeal.Gen Idealize.ShloMosaic Idealize.ShloMosaic.TcCoe Idealize.SL.Sem
open Idealize.ShloMosaic.StableHlo Idealize.ShloMosaic.ValueIdx

/-! ## The three tables as functions of the argument arrays -/

/-- The transposed weight. -/
def weightT (W : FVec Ideal S1024x512 .f32) : FVec Ideal S512x1024 .bf16 :=
  truncf .bf16 (transpose S512x1024 [1, 0] W transposes_S1024x512_S512x1024_1_0) bitsLt_bf16_f32

/-- The channel table scaled by alpha_c. -/
def chanScaled (gc : FVec Ideal S1 .f32) (chan : FVec Ideal S64x1024 .f32) : FVec Ideal S64x1024 .bf16 :=
  truncf .bf16 (mulf (broadcastInDim S64x1024 ![0, 1] bcast_S1x1_S64x1024_0_1 (broadcastInDim S1x1 ![1] bcast_S1_S1x1_1 gc)) chan)
    bitsLt_bf16_f32

/-- The bias added to the time table scaled by alpha_t. -/
def timeFolded (bias : FVec Ideal S1024 .f32) (gt : FVec Ideal S1 .f32) (time : FVec Ideal S512x1024 .f32) :
    FVec Ideal S512x1024 .bf16 :=
  truncf .bf16 (addf (broadcastInDim S512x1024 ![0, 1] bcast_S1x1024_S512x1024_0_1 (broadcastInDim S1x1024 ![1] bcast_S1024_S1x1024_1 bias))
    (mulf (broadcastInDim S512x1024 ![0, 1] bcast_S1x1_S512x1024_0_1 (broadcastInDim S1x1 ![1] bcast_S1_S1x1_1 gt)) time))
    bitsLt_bf16_f32

theorem weightT_apply (W : FVec Ideal S1024x512 .f32) (k : Fin 512) (o : Fin 1024) :
    weightT W (ix2 k o) = W (ix2 o k) := by
  unfold weightT
  rw [truncf_apply, transpose_ix2_apply]

/-- A one-element array spread over a matrix reads its one element everywhere. -/
theorem gain_apply {n0 n1 : Nat} (h1 : S1.BroadcastsInDim S1x1 ![1])
    (h2 : S1x1.BroadcastsInDim (⟨2, ![n0, n1]⟩ : Shape) ![0, 1]) (g : FVec Ideal S1 .f32) (p : Fin n0) (q : Fin n1) :
    broadcastInDim (⟨2, ![n0, n1]⟩ : Shape) ![0, 1] h2 (broadcastInDim S1x1 ![1] h1 g) (ix2 p q) = g (ix1 (0 : Fin 1)) := by
  rw [broadcastInDim_apply ![0, 1] h2 _ (ix2 p q) (ix2 (0 : Fin 1) (0 : Fin 1))
      (fun ax => match ax with | ⟨0, _⟩ => rfl | ⟨1, _⟩ => rfl),
    broadcastInDim_apply ![1] h1 g (ix2 (0 : Fin 1) (0 : Fin 1)) (ix1 (0 : Fin 1))
      (fun ax => match ax with | ⟨0, _⟩ => rfl)]

theorem chanScaled_apply (gc : FVec Ideal S1 .f32) (chan : FVec Ideal S64x1024 .f32) (c : Fin 64) (o : Fin 1024) :
    chanScaled gc chan (ix2 c o) = gc (ix1 (0 : Fin 1)) * chan (ix2 c o) := by
  unfold chanScaled
  rw [truncf_apply, mulf_apply, gain_apply]

theorem timeFolded_apply (bias : FVec Ideal S1024 .f32) (gt : FVec Ideal S1 .f32) (time : FVec Ideal S512x1024 .f32)
    (t : Fin 512) (o : Fin 1024) :
    timeFolded bias gt time (ix2 t o) = bias (ix1 o) + gt (ix1 (0 : Fin 1)) * time (ix2 t o) := by
  unfold timeFolded
  rw [truncf_apply, addf_apply, mulf_apply, gain_apply,
    broadcastInDim_apply ![0, 1] bcast_S1x1024_S512x1024_0_1 _ (ix2 t o) (ix2 (0 : Fin 1) o)
      (fun ax => match ax with | ⟨0, _⟩ => rfl | ⟨1, _⟩ => rfl),
    broadcastInDim_apply ![1] bcast_S1024_S1x1024_1 bias (ix2 (0 : Fin 1) o) (ix1 o)
      (fun ax => match ax with | ⟨0, _⟩ => rfl)]

/-! ## What the launch finds in the three buffers -/

variable (m : (ℓ : Loc nD τ sig) → Buf (Elt Ideal) ℓ)

theorem found_weight (c : Dev nD) :
    (V m c main_v1 : S512x1024.Idx → EReal) = weightT (m ((c : Thread nD τ).loc main_arg1)) := by
  show StableHlo.after hostOps0 (fun b => m (c, b)) (Proc.devRef .tc main_v1) = _
  after_results
  rfl

theorem found_chan (c : Dev nD) :
    (V m c main_v5 : S64x1024.Idx → EReal)
      = chanScaled (m ((c : Thread nD τ).loc main_arg5)) (m ((c : Thread nD τ).loc main_arg3)) := by
  show StableHlo.after hostOps0 (fun b => m (c, b)) (Proc.devRef .tc main_v5) = _
  after_results
  rfl

theorem found_time (c : Dev nD) :
    (V m c main_v12 : S512x1024.Idx → EReal)
      = timeFolded (m ((c : Thread nD τ).loc main_arg2)) (m ((c : Thread nD τ).loc main_arg6)) (m ((c : Thread nD τ).loc main_arg4)) := by
  show StableHlo.after hostOps0 (fun b => m (c, b)) (Proc.devRef .tc main_v12) = _
  after_results
  rfl

end Cert.KernelIdeal.Tables

end
-- ==== Proof.KernelWhole.lean ====
/-
  The kernel's output array, and its result after the flattening.

  The launch runs 32 grid steps; step s handles batch element s / 8 and the 64 time steps from (s % 8) * 64 on, and
  writes rows s*64 .. s*64+63 of the 2048 x 64 x 1024 output (row = batch * 512 + time). Every row lies in exactly
  the block of step row / 64, so after the launch the array holds, at (row, channel, feature), the entry of the
  common formula at batch row / 512 and time row % 512. The reshape after the launch then flattens (row, channel).
-/
import proofs.«124523_g64484638982276_cont_9to1_m_834_26_alg».proof.Proof.Gen.KernelIdeal.Frame
import proofs.«124523_g64484638982276_cont_9to1_m_834_26_alg».proof.Proof.Formula
import proofs.«124523_g64484638982276_cont_9to1_m_834_26_alg».proof.Proof.KernelStep
import proofs.«124523_g64484638982276_cont_9to1_m_834_26_alg».proof.Proof.KernelTables
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- The seven argument arrays as launched, each at its own shape. -/
abbrev xArr (c : Dev nD) : FVec Ideal S4x64x512x512 .f32 := m ((c : Thread nD τ).loc main_arg0)
abbrev wArr (c : Dev nD) : FVec Ideal S1024x512 .f32 := m ((c : Thread nD τ).loc main_arg1)
abbrev biasArr (c : Dev nD) : FVec Ideal S1024 .f32 := m ((c : Thread nD τ).loc main_arg2)
abbrev chanArr (c : Dev nD) : FVec Ideal S64x1024 .f32 := m ((c : Thread nD τ).loc main_arg3)
abbrev timeArr (c : Dev nD) : FVec Ideal S512x1024 .f32 := m ((c : Thread nD τ).loc main_arg4)
abbrev gcArr (c : Dev nD) : FVec Ideal S1 .f32 := m ((c : Thread nD τ).loc main_arg5)
abbrev gtArr (c : Dev nD) : FVec Ideal S1 .f32 := m ((c : Thread nD τ).loc main_arg6)

/-- The kernel's output array as the common formula of the launch arguments. -/
abbrev rowsOf (c : Dev nD) : S2048x64x1024.Idx → EReal :=
  Cert.Formula.rows (xArr m c) (wArr m c) (biasArr m c) (chanArr m c) (timeArr m c) (gcArr m c) (gtArr m c)

/-- The result as the common formula of the launch arguments. -/
abbrev resultOf (c : Dev nD) : S4x32768x1024.Idx → EReal :=
  Cert.Formula.result (xArr m c) (wArr m c) (biasArr m c) (chanArr m c) (timeArr m c) (gcArr m c) (gtArr m c)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- Where each window's block sits at step s, decided over the 32 steps: the input block at batch s / 8 and time
    block s % 8, the weight and the channel table whole, the time table's block s % 8, the output block s. -/
theorem idx_facts : ∀ t : Fin cfg0.N,
    win0_0.index t (0 : Fin 4) = t.val / 8 ∧ win0_0.index t (1 : Fin 4) = 0
    ∧ win0_0.index t (2 : Fin 4) = t.val % 8 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val % 8 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem step_lt (t : Fin cfg0.N) : t.val < 32 := by
  have h : t.val < grid0.N := t.isLt
  rw [N_0] at h
  exact h

/-! ## The input blocks at step t -/

/-- The four input blocks of step t, each at its own shape. -/
abbrev xblk (c : Dev nD) (t : Fin cfg0.N) : Vec Ideal S1x64x64x512 .f32 := iblk m c 0 t
abbrev wblk (c : Dev nD) (t : Fin cfg0.N) : Vec Ideal S512x1024 .bf16 := iblk m c 1 t
abbrev cblk (c : Dev nD) (t : Fin cfg0.N) : Vec Ideal S64x1024 .bf16 := iblk m c 2 t
abbrev tblk (c : Dev nD) (t : Fin cfg0.N) : Vec Ideal S64x1024 .bf16 := iblk m c 3 t

/-- The input block: channel ch, local time tt, feature k of step t is x[t / 8, ch, (t % 8) * 64 + tt, k]. -/
theorem read_input (c : Dev nD) (t : Fin cfg0.N) (ch tt : Fin 64) (k : Fin 512) :
    xblk m c t (ix4 (0 : Fin 1) ch tt k)
      = xArr m c (ix4 (⟨t.val / 8, by have := step_lt t; omega⟩ : Fin 4) ch
          (⟨t.val % 8 * 64 + tt.val, by have := tt.isLt; omega⟩ : Fin 512) k) := by
  obtain ⟨e0, e1, e2, e3, -⟩ := idx_facts t
  show V m c main_arg0 (((cfg0.win 0).blk t).view.emb (ix4 (0 : Fin 1) ch tt k)) = _
  rw [V_main_arg0]
  refine congrArg (xArr m c) (funext fun a => Fin.ext ?_)
  match a with
  | ⟨0, _⟩ => show win0_0.index t (0 : Fin 4) * 1 + 1 * 0 = t.val / 8; omega
  | ⟨1, _⟩ => show win0_0.index t (1 : Fin 4) * 64 + 1 * ch.val = ch.val; omega
  | ⟨2, _⟩ => show win0_0.index t (2 : Fin 4) * 64 + 1 * tt.val = t.val % 8 * 64 + tt.val; omega
  | ⟨3, _⟩ => show win0_0.index t (3 : Fin 4) * 512 + 1 * k.val = k.val; omega

/-- The weight block is the whole transposed weight. -/
theorem read_weight (c : Dev nD) (t : Fin cfg0.N) (k : Fin 512) (o : Fin 1024) :
    wblk m c t (ix2 k o) = wArr m c (ix2 o k) := by
  obtain ⟨-, -, -, -, e0, e1, -⟩ := idx_facts t
  show V m c main_v1 (((cfg0.win 1).blk t).view.emb (ix2 k o)) = _
  have he : ((cfg0.win 1).blk t).view.emb (ix2 k o) = ix2 k o := funext fun a => Fin.ext (by
    match a with
    | ⟨0, _⟩ => show win0_1.index t (0 : Fin 2) * 512 + 1 * k.val = k.val; omega
    | ⟨1, _⟩ => show win0_1.index t (1 : Fin 2) * 1024 + 1 * o.val = o.val; omega)
  rw [he]
  exact (congrFun (Tables.found_weight m c) (ix2 k o)).trans (Tables.weightT_apply _ k o)

/-- The channel block is the whole scaled channel table. -/
theorem read_chan (c : Dev nD) (t : Fin cfg0.N) (ch : Fin 64) (o : Fin 1024) :
    cblk m c t (ix2 ch o) = gcArr m c (ix1 (0 : Fin 1)) * chanArr m c (ix2 ch o) := by
  obtain ⟨-, -, -, -, -, -, e0, e1, -⟩ := idx_facts t
  show V m c main_v5 (((cfg0.win 2).blk t).view.emb (ix2 ch o)) = _
  have he : ((cfg0.win 2).blk t).view.emb (ix2 ch o) = ix2 ch o := funext fun a => Fin.ext (by
    match a with
    | ⟨0, _⟩ => show win0_2.index t (0 : Fin 2) * 64 + 1 * ch.val = ch.val; omega
    | ⟨1, _⟩ => show win0_2.index t (1 : Fin 2) * 1024 + 1 * o.val = o.val; omega)
  rw [he]
  exact (congrFun (Tables.found_chan m c) (ix2 ch o)).trans (Tables.chanScaled_apply _ _ ch o)

/-- The time block: local time tt of step t is row (t % 8) * 64 + tt of the folded time table. -/
theorem read_time (c : Dev nD) (t : Fin cfg0.N) (tt : Fin 64) (o : Fin 1024) :
    tblk m c t (ix2 tt o)
      = biasArr m c (ix1 o)
        + gtArr m c (ix1 (0 : Fin 1))
          * timeArr m c (ix2 (⟨t.val % 8 * 64 + tt.val, by have := tt.isLt; omega⟩ : Fin 512) o) := by
  obtain ⟨-, -, -, -, -, -, -, -, e0, e1, -⟩ := idx_facts t
  show V m c main_v12 (((cfg0.win 3).blk t).view.emb (ix2 tt o)) = _
  have he : ((cfg0.win 3).blk t).view.emb (ix2 tt o)
      = ix2 (⟨t.val % 8 * 64 + tt.val, by have := tt.isLt; omega⟩ : Fin 512) o := funext fun a => Fin.ext (by
    match a with
    | ⟨0, _⟩ => show win0_3.index t (0 : Fin 2) * 64 + 1 * tt.val = t.val % 8 * 64 + tt.val; omega
    | ⟨1, _⟩ => show win0_3.index t (1 : Fin 2) * 1024 + 1 * o.val = o.val; omega)
  rw [he]
  exact (congrFun (Tables.found_time m c) _).trans (Tables.timeFolded_apply _ _ _ _ o)

/-- Where the output block of step t sits: local time tt is row t * 64 + tt. -/
theorem out_emb (t : Fin cfg0.N) (tt ch : Fin 64) (o : Fin 1024) :
    ((cfg0.win 4).blk t).view.emb (ix3 tt ch o)
      = ix3 (⟨t.val * 64 + tt.val, by have := step_lt t; have := tt.isLt; omega⟩ : Fin 2048) ch o := by
  obtain ⟨-, -, -, -, -, -, -, -, -, -, e0, e1, e2⟩ := idx_facts t
  funext a
  refine Fin.ext ?_
  match a with
  | ⟨0, _⟩ => show win0_4.index t (0 : Fin 3) * 64 + 1 * tt.val = t.val * 64 + tt.val; omega
  | ⟨1, _⟩ => show win0_4.index t (1 : Fin 3) * 64 + 1 * ch.val = ch.val; omega
  | ⟨2, _⟩ => show win0_4.index t (2 : Fin 3) * 1024 + 1 * o.val = o.val; omega

/-! ## What step t writes back, and the whole array -/

/-- Step t writes back block t of the common formula. -/
theorem flushed_eq (c : Dev nD) (t : Fin cfg0.N) :
    (dats m 0 c).flushed 4 t = ((cfg0.win 4).blk t).view.read (Elt Ideal) (rowsOf m c) := by
  show (cfg0.win 4).cut (grid0.coords t) ((dats m 0 c).after 4 t) = _
  rw [after0_4]
  unfold out0_4
  rw [View.canon_unit_zero hz3]
  simp only [View.ld_unit_zero (S := S1x64x64x512) hz4, View.ld_unit_zero (S := S512x1024) hz2,
    View.ld_unit_zero (S := S64x1024) hz2]
  funext j
  obtain ⟨tt, ch, o, rfl⟩ : ∃ (tt : Fin 64) (ch : Fin 64) (o : Fin 1024), j = ix3 tt ch o := ⟨j 0, j 1, j 2, eq_ix3 j⟩
  show k0_pay1 (F := Ideal) (xblk m c t) (wblk m c t) (tblk m c t) (cblk m c t) (ix3 tt ch o)
    = rowsOf m c (((cfg0.win 4).blk t).view.emb (ix3 tt ch o))
  rw [out_emb]
  refine (Step.stored_apply (xblk m c t) (wblk m c t) (tblk m c t) (cblk m c t) tt ch o).trans ?_
  rw [read_time m c t tt o, read_chan m c t ch o,
    Finset.sum_congr rfl (fun k _ => by rw [read_input m c t ch tt k, read_weight m c t k o] :
      ∀ k ∈ (Finset.univ : Finset (Fin 512)), xblk m c t (ix4 (0 : Fin 1) ch tt k) * wblk m c t (ix2 k o)
        = xArr m c (ix4 (⟨t.val / 8, by have := step_lt t; omega⟩ : Fin 4) ch
            (⟨t.val % 8 * 64 + tt.val, by have := tt.isLt; omega⟩ : Fin 512) k)
          * wArr m c (ix2 o k))]
  have hs := step_lt t
  have htt := tt.isLt
  show Cert.Formula.entry (xArr m c) (wArr m c) (biasArr m c) (chanArr m c) (timeArr m c) (gcArr m c) (gtArr m c)
      (⟨t.val / 8, by omega⟩ : Fin 4) (⟨t.val % 8 * 64 + tt.val, by omega⟩ : Fin 512) ch o
    = Cert.Formula.entry (xArr m c) (wArr m c) (biasArr m c) (chanArr m c) (timeArr m c) (gcArr m c) (gtArr m c)
      (⟨(t.val * 64 + tt.val) / 512, by omega⟩ : Fin 4) (⟨(t.val * 64 + tt.val) % 512, Nat.mod_lt _ (by decide)⟩ : Fin 512) ch o
  refine Cert.Formula.entry_congr (xArr m c) (wArr m c) (biasArr m c) (chanArr m c) (timeArr m c) (gcArr m c) (gtArr m c) o ?_ ?_ rfl
  · show t.val / 8 = (t.val * 64 + tt.val) / 512
    omega
  · show t.val % 8 * 64 + tt.val = (t.val * 64 + tt.val) % 512
    omega

/-- An index of the array is in step t's block iff each coordinate is in the block's range on its axis. -/
theorem mem_blk (t : Fin cfg0.N) (i : S2048x64x1024.Idx) :
    i ∈ ((cfg0.win 4).blk t).view.set ↔ ∀ a : Fin 3, win0_4.index t a * S64x64x1024.size a ≤ (i a).val
      ∧ (i a).val < win0_4.index t a * S64x64x1024.size a + S64x64x1024.size a := by
  show i ∈ ((View.whole main_v13).slice (win0_4.rect t)).set ↔ _
  rw [View.set_slice_whole, Rect.mem_set_unit]
  exact Iff.rfl

/-- Every index of the array is in the block of step row / 64. -/
theorem covered (i : S2048x64x1024.Idx) :
    ∃ t : Fin cfg0.N, (cfg0.win 4).flush t = true ∧ i ∈ ((cfg0.win 4).blk t).view.set := by
  have h0 : (i 0).val < 2048 := (i 0).isLt
  have h1 : (i 1).val < 64 := (i 1).isLt
  have h2 : (i 2).val < 1024 := (i 2).isLt
  have hN : (i 0).val / 64 < grid0.N := by rw [N_0]; omega
  refine ⟨⟨(i 0).val / 64, hN⟩, flush0_4 _, ?_⟩
  obtain ⟨-, -, -, -, -, -, -, -, -, -, e0, e1, e2⟩ := idx_facts ⟨(i 0).val / 64, hN⟩
  have e0' : win0_4.index ⟨(i 0).val / 64, hN⟩ (0 : Fin 3) = (i 0).val / 64 := e0
  rw [mem_blk]
  intro a
  match a with
  | ⟨0, _⟩ =>
    show win0_4.index ⟨(i 0).val / 64, hN⟩ (0 : Fin 3) * 64 ≤ (i 0).val
      ∧ (i 0).val < win0_4.index ⟨(i 0).val / 64, hN⟩ (0 : Fin 3) * 64 + 64
    omega
  | ⟨1, _⟩ =>
    show win0_4.index ⟨(i 0).val / 64, hN⟩ (1 : Fin 3) * 64 ≤ (i 1).val
      ∧ (i 1).val < win0_4.index ⟨(i 0).val / 64, hN⟩ (1 : Fin 3) * 64 + 64
    omega
  | ⟨2, _⟩ =>
    show win0_4.index ⟨(i 0).val / 64, hN⟩ (2 : Fin 3) * 1024 ≤ (i 2).val
      ∧ (i 2).val < win0_4.index ⟨(i 0).val / 64, hN⟩ (2 : Fin 3) * 1024 + 1024
    omega

/-- After the launch the output array holds the common formula, row by row. -/
theorem array_eq (c : Dev nD) : (dats m 0 c).arrAt 4 cfg0.N = rowsOf m c :=
  (dats m 0 c).arrAt_eq_of_cover 4 (rowsOf m c) (fun t _ => flushed_eq m c t) covered

/-! ## The flattening after the launch, and the run -/

/-- The result buffer after the reshape that follows the launch. -/
theorem result_eq (c : Dev nD) :
    Pipeline.afterTail₀ cfgs (dats m) 0 (V0 m) [hostOps1] c main_v14 = resultOf m c := by
  unfold Pipeline.afterTail₀
  show StableHlo.after hostOps1 _ (Proc.devRef .tc main_v14) = _
  after_results
  have hw : Pipeline.withArrays (cfgs 0).spec c (V0 m c) (fun w => (dats m 0 c).arrAt w (cfgs 0).N) (Proc.devRef .tc main_v13)
      = rowsOf m c := (Pipeline.withArrays_arr spec0 launch0.win.arr_inj c _ _ 4).trans (array_eq m c)
  rw [hw]
  exact Cert.Formula.flatten_rows shapeCasts_S2048x64x1024_S4x32768x1024 (xArr m c) (wArr m c) (biasArr m c) (chanArr m c)
    (timeArr m c) (gcArr m c) (gtArr m c)

/-- Every weakly fair execution of the kernel's program terminates with the result buffer at the common formula of
    the launch arguments, and the arguments unchanged. -/
theorem run : θ_run defs (onTc (τ := τ) (main (F := Ideal))) ⟨m, fun _ => 0, ρ⟩ fun r => ∀ c : Dev nD,
      r.2.mem ((c.tc : Thread nD τ).loc main_v14) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v14 (Pipeline.mem_restRefs_of main_v14 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.RefLine.lean ====
/-
  The reference program as one straight line of host operations.

  The reference computes  out[b, t*64 + c, o] = ((sum_d x[b,c,t,d] * W[o,d] + bias[o]) + chan[c,o] * alpha_c) + time[t,o] * alpha_t.
  Its two row lookups (the channel table at the channel numbers 0..63, the time table at the time numbers 0..511)
  are calls of a helper function: each normalises a negative index by adding the number of rows, tests the index
  against the range of rows, gathers the rows, and selects the gathered row where the index was in range and a
  not-a-number word elsewhere. Here each call's operations are listed in place, over that call's own buffers, so
  that the whole program is a list of 70 operations; the run of a straight line leaves every buffer at the fold of
  the operations' results over the launch contents.
-/
import proofs.«124523_g64484638982276_cont_9to1_m_834_26_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The 70 operations, in program order: the projection and the bias (4), the two index vectors (2), the channel
    lookup (23 and the row scaling by alpha_c, 4 more), the time lookup (23 and the scaling by alpha_t, 4 more),
    the two additions with their broadcasts (4), the exchange of the channel and time axes and the flattening (2). -/
abbrev ops : List (HloOp τ sig (Elt F)) :=
  [ StableHlo.binary main_arg0 main_arg1 main_v0 ((fun l r => Host.dotGeneral dot_S4x64x512x512_S1024x512_S4x64x512x1024_3_1_012_0_n_n none l r) : (⟨S4x64x512x512, .f32⟩ : BufTy).Contents (Elt F) → (⟨S1024x512, .f32⟩ : BufTy).Contents (Elt F) → (⟨S4x64x512x1024, .f32⟩ : BufTy).Contents (Elt F)),
    StableHlo.unary main_arg2 main_v1 (broadcastInDim S1x1x1x1024 ![3] bcast_S1024_S1x1x1x1024_3 : (⟨S1024, .f32⟩ : BufTy).Contents (Elt F) → (⟨S1x1x1x1024, .f32⟩ : BufTy).Contents (Elt F)),
    StableHlo.unary main_v1 main_v2 (broadcastInDim S4x64x512x1024 ![0, 1, 2, 3] bcast_S1x1x1x1024_S4x64x512x1024_0_1_2_3 : (⟨S1x1x1x1024, .f32⟩ : BufTy).Contents (Elt F) → (⟨S4x64x512x1024, .f32⟩ : BufTy).Contents (Elt F)),
    StableHlo.binary main_v0 main_v2 main_v3 (addf : (⟨S4x64x512x1024, .f32⟩ : BufTy).Contents (Elt F) → (⟨S4x64x512x1024, .f32⟩ : BufTy).Contents (Elt F) → (⟨S4x64x512x1024, .f32⟩ : BufTy).Contents (Elt F)),
    StableHlo.nullary main_v4 (iotaInDim S512 32 0),
    StableHlo.nullary main_v5 (iotaInDim S64 32 0),
    -- the channel lookup
    TRef.nullary main_call0.c (constantI S_ 32 0#32),
    TRef.unary main_call0.c main_call0.v0 (broadcastInDim S64 ![] bcast_S_S64),
    TRef.binary (.of main_v5 : TRef sig ⟨S64, .i32⟩) main_call0.v0 main_call0.v1 (cmpi .slt),
    TRef.nullary main_call0.c_0 (constantI S_ 32 64#32),
    TRef.unary main_call0.c_0 main_call0.v2 (broadcastInDim S64 ![] bcast_S_S64),
    TRef.binary (.of main_v5 : TRef sig ⟨S64, .i32⟩) main_call0.v2 main_call0.v3 addi,
    TRef.ternary main_call0.v1 main_call0.v3 (.of main_v5 : TRef sig ⟨S64, .i32⟩) main_call0.call0.v0 select,
    TRef.unary main_call0.call0.v0 main_call0.v5 (broadcastInDim S64x1 ![0] bcast_S64_S64x1_0),
    TRef.nullary main_call0.c_1 (constantI S1 32 63#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_arg3 : TRef sig ⟨S64x1024, .f32⟩) main_call0.v5 main_call0.v13 (fun x i => Host.gather gather_S64x1024_S64x1_S64x1024_1_0_n_n_0_1_11024 x i),
    TRef.unary main_call0.v12 main_call0.v14 (broadcastInDim S64x1024 ![0] bcast_S64_S64x1024_0),
    TRef.nullary main_call0.cst (constant S_ .f32 0x7FC00000#32),
    TRef.unary main_call0.cst main_call0.v15 (broadcastInDim S64x1024 ![] bcast_S_S64x1024),
    TRef.ternary main_call0.v14 main_call0.v13 main_call0.v15 main_call0.v16 select,
    StableHlo.unary main_v6 main_v7 (broadcastInDim S1x64x1x1024 ![1, 3] bcast_S64x1024_S1x64x1x1024_1_3 : (⟨S64x1024, .f32⟩ : BufTy).Contents (Elt F) → (⟨S1x64x1x1024, .f32⟩ : BufTy).Contents (Elt F)),
    StableHlo.unary main_arg5 main_v8 (broadcastInDim S1x1x1x1 ![3] bcast_S1_S1x1x1x1_3 : (⟨S1, .f32⟩ : BufTy).Contents (Elt F) → (⟨S1x1x1x1, .f32⟩ : BufTy).Contents (Elt F)),
    StableHlo.unary main_v8 main_v9 (broadcastInDim S1x64x1x1024 ![0, 1, 2, 3] bcast_S1x1x1x1_S1x64x1x1024_0_1_2_3 : (⟨S1x1x1x1, .f32⟩ : BufTy).Contents (Elt F) → (⟨S1x64x1x1024, .f32⟩ : BufTy).Contents (Elt F)),
    StableHlo.binary main_v7 main_v9 main_v10 (mulf : (⟨S1x64x1x1024, .f32⟩ : BufTy).Contents (Elt F) → (⟨S1x64x1x1024, .f32⟩ : BufTy).Contents (Elt F) → (⟨S1x64x1x1024, .f32⟩ : BufTy).Contents (Elt F)),
    -- the time lookup
    TRef.nullary main_call1.c (constantI S_ 32 0#32),
    TRef.unary main_call1.c main_call1.v0 (broadcastInDim S512 ![] bcast_S_S512),
    TRef.binary (.of main_v4 : TRef sig ⟨S512, .i32⟩) main_call1.v0 main_call1.v1 (cmpi .slt),
    TRef.nullary main_call1.c_0 (constantI S_ 32 512#32),
    TRef.unary main_call1.c_0 main_call1.v2 (broadcastInDim S512 ![] bcast_S_S512),
    TRef.binary (.of main_v4 : TRef sig ⟨S512, .i32⟩) main_call1.v2 main_call1.v3 addi,
    TRef.ternary main_call1.v1 main_call1.v3 (.of main_v4 : TRef sig ⟨S512, .i32⟩) main_call1.call0.v0 select,
    TRef.unary main_call1.call0.v0 main_call1.v5 (broadcastInDim S512x1 ![0] bcast_S512_S512x1_0),
    TRef.nullary main_call1.c_1 (constantI S1 32 511#32),
    TRef.nullary main_call1.c_2 (constantI S_ 32 0#32),
    TRef.unary main_call1.c_2 main_call1.v6 (broadcastInDim S512x1 ![] bcast_S_S512x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S512x1 ![0, 1] bcast_S1x1_S512x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S512x1_S512_d1 h_S_),
    TRef.binary (.of main_arg4 : TRef sig ⟨S512x1024, .f32⟩) main_call1.v5 main_call1.v13 (fun x i => Host.gather gather_S512x1024_S512x1_S512x1024_1_0_n_n_0_1_11024 x i),
    TRef.unary main_call1.v12 main_call1.v14 (broadcastInDim S512x1024 ![0] bcast_S512_S512x1024_0),
    TRef.nullary main_call1.cst (constant S_ .f32 0x7FC00000#32),
    TRef.unary main_call1.cst main_call1.v15 (broadcastInDim S512x1024 ![] bcast_S_S512x1024),
    TRef.ternary main_call1.v14 main_call1.v13 main_call1.v15 main_call1.v16 select,
    StableHlo.unary main_v11 main_v12 (broadcastInDim S1x1x512x1024 ![2, 3] bcast_S512x1024_S1x1x512x1024_2_3 : (⟨S512x1024, .f32⟩ : BufTy).Contents (Elt F) → (⟨S1x1x512x1024, .f32⟩ : BufTy).Contents (Elt F)),
    StableHlo.unary main_arg6 main_v13 (broadcastInDim S1x1x1x1 ![3] bcast_S1_S1x1x1x1_3 : (⟨S1, .f32⟩ : BufTy).Contents (Elt F) → (⟨S1x1x1x1, .f32⟩ : BufTy).Contents (Elt F)),
    StableHlo.unary main_v13 main_v14 (broadcastInDim S1x1x512x1024 ![0, 1, 2, 3] bcast_S1x1x1x1_S1x1x512x1024_0_1_2_3 : (⟨S1x1x1x1, .f32⟩ : BufTy).Contents (Elt F) → (⟨S1x1x512x1024, .f32⟩ : BufTy).Contents (Elt F)),
    StableHlo.binary main_v12 main_v14 main_v15 (mulf : (⟨S1x1x512x1024, .f32⟩ : BufTy).Contents (Elt F) → (⟨S1x1x512x1024, .f32⟩ : BufTy).Contents (Elt F) → (⟨S1x1x512x1024, .f32⟩ : BufTy).Contents (Elt F)),
    -- the sum, the exchange of the channel and time axes, the flattening
    StableHlo.unary main_v10 main_v16 (broadcastInDim S4x64x512x1024 ![0, 1, 2, 3] bcast_S1x64x1x1024_S4x64x512x1024_0_1_2_3 : (⟨S1x64x1x1024, .f32⟩ : BufTy).Contents (Elt F) → (⟨S4x64x512x1024, .f32⟩ : BufTy).Contents (Elt F)),
    StableHlo.binary main_v3 main_v16 main_v17 (addf : (⟨S4x64x512x1024, .f32⟩ : BufTy).Contents (Elt F) → (⟨S4x64x512x1024, .f32⟩ : BufTy).Contents (Elt F) → (⟨S4x64x512x1024, .f32⟩ : BufTy).Contents (Elt F)),
    StableHlo.unary main_v15 main_v18 (broadcastInDim S4x64x512x1024 ![0, 1, 2, 3] bcast_S1x1x512x1024_S4x64x512x1024_0_1_2_3 : (⟨S1x1x512x1024, .f32⟩ : BufTy).Contents (Elt F) → (⟨S4x64x512x1024, .f32⟩ : BufTy).Contents (Elt F)),
    StableHlo.binary main_v17 main_v18 main_v19 (addf : (⟨S4x64x512x1024, .f32⟩ : BufTy).Contents (Elt F) → (⟨S4x64x512x1024, .f32⟩ : BufTy).Contents (Elt F) → (⟨S4x64x512x1024, .f32⟩ : BufTy).Contents (Elt F)),
    StableHlo.unary main_v19 main_v20 ((transpose S4x512x64x1024 [0, 2, 1, 3] · transposes_S4x64x512x1024_S4x512x64x1024_0_2_1_3) : (⟨S4x64x512x1024, .f32⟩ : BufTy).Contents (Elt F) → (⟨S4x512x64x1024, .f32⟩ : BufTy).Contents (Elt F)),
    StableHlo.reshape main_v20 main_v21 rfl shapeCasts_S4x512x64x1024_S4x32768x1024 ]

-- seventy binds re-associated: the rewrite under the chain recurses once per statement, and re-associating them
-- takes more steps than the default budget allows
set_option maxRecDepth 2048 in
set_option maxHeartbeats 2000000 in
/-- The program is that straight line: the helper functions unfolded at their calls, sequencing re-associated. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., unary_bufs_sub .., binary_bufs_sub ..,
    unary_bufs_sub .., binary_bufs_sub .., unary_bufs_sub .., binary_bufs_sub .., unary_bufs_sub .., reshape_bufs_sub ..⟩

/-- From any memory with zero counters every weakly fair execution of the reference terminates, and every final
    state has each buffer at the fold of the 70 operations' results over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.RefLookup.lean ====
/-
  The reference's row lookups, read at an index.

  The reference looks the channel table up at the channel numbers 0, 1, ..., 63 (and the time table at the time
  numbers 0, ..., 511). A lookup first makes a negative row number non-negative by adding the number of rows, then
  tests 0 <= row <= rows - 1, gathers the rows (the gather clamps the row into the table), and keeps the gathered
  row where the test passed and a not-a-number word elsewhere. At the row numbers 0, 1, ..., rows - 1 nothing is
  negative, every test passes and no clamp moves anything: the lookup returns the table itself, and the
  not-a-number word is never read.
-/
import proofs.«124523_g64484638982276_cont_9to1_m_834_26_alg».proof.Proof.Gen.ReferenceIdeal
import proofs.«124523_g64484638982276_cont_9to1_m_834_26_alg».proof.Proof.LibGatherRows
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

noncomputable section

namespace Cert.ReferenceIdeal.Lookup

open Cert.ReferenceIdeal Cert.ReferenceIdeal.Gen Idealize.ShloMosaic Idealize.ShloMosaic.ValueIdx
open Idealize.ShloMosaic.StableHlo

/-- A fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A number below 2^31 as a 32-bit word has that number as its unsigned value. -/
theorem toNat_small (n : Nat) (hn : n < 2 ^ 31) : (BitVec.ofNat 32 n).toNat = n := by
  rw [BitVec.toNat_ofNat]; omega

/-! ## The channel table's lookup: 64 rows -/

/-- A row number made non-negative. -/
def wrapC (ids : IVec S64 32) : IVec S64 32 :=
  select (cmpi .slt ids (broadcastInDim S64 ![] bcast_S_S64 (constantI S_ 32 0#32)))
    (addi ids (broadcastInDim S64 ![] bcast_S_S64 (constantI S_ 32 64#32))) ids

/-- The row numbers as a column of start indices. -/
def colC (ids : IVec S64 32) : IVec S64x1 32 := broadcastInDim S64x1 ![0] bcast_S64_S64x1_0 (wrapC ids)

/-- Per row: is its number in the table's range. -/
def inRangeC (ids : IVec S64 32) : IVec S64 1 :=
  Host.reduce IntOp.andi
    (andi (cmpi .sge (colC ids) (broadcastInDim S64x1 ![] bcast_S_S64x1 (constantI S_ 32 0#32)))
      (cmpi .sle (colC ids) (broadcastInDim S64x1 ![0, 1] bcast_S1x1_S64x1_0_1 (broadcastInDim S1x1 ![1] bcast_S1_S1x1_1 (constantI S1 32 63#32)))))
    (constantI S_ 1 1#1) reducesTo_S64x1_S64_d1 h_S_

/-- The lookup: the gathered rows where in range, the not-a-number word elsewhere. -/
def takeC (tbl : FVec Ideal S64x1024 .f32) (ids : IVec S64 32) : FVec Ideal S64x1024 .f32 :=
  select (broadcastInDim S64x1024 ![0] bcast_S64_S64x1024_0 (inRangeC ids))
    (Host.gather gather_S64x1024_S64x1_S64x1024_1_0_n_n_0_1_11024 tbl (colC ids))
    (broadcastInDim S64x1024 ![] bcast_S_S64x1024 (constant S_ .f32 0x7FC00000#32))

theorem wrapC_iota (q : Fin 64) : wrapC (iotaInDim S64 32 0) (ix1 q) = BitVec.ofNat 32 q.val := by
  unfold wrapC
  rw [select_apply]
  have hneg : cmpi .slt (iotaInDim S64 32 0) (broadcastInDim S64 ![] bcast_S_S64 (constantI S_ 32 0#32)) (ix1 q) = 0#1 := by
    show IntOp.cmpi .slt (BitVec.ofNat 32 q.val) 0#32 = 0#1
    refine eq_zero_of_ne_one fun h => ?_
    have hq : (BitVec.ofNat 32 q.val).toNat < 2 ^ 31 := by rw [toNat_small _ (by have := q.isLt; omega)]; have := q.isLt; omega
    exact Nat.not_lt_zero _ ((Predicate.slt_iff_toNat hq (by decide)).1 h)
  rw [hneg, select_zero]
  rfl

theorem colC_iota (q : Fin 64) (u : Fin 1) : colC (iotaInDim S64 32 0) (ix2 q u) = BitVec.ofNat 32 q.val := by
  unfold colC
  rw [broadcastInDim_apply ![0] bcast_S64_S64x1_0 _ (ix2 q u) (ix1 q) (fun ax => match ax with | ⟨0, _⟩ => rfl)]
  exact wrapC_iota q

theorem inRangeC_iota (q : Fin 64) : inRangeC (iotaInDim S64 32 0) (ix1 q) = 1#1 := by
  unfold inRangeC
  rw [Host.reduce_eq_foldl]
  refine foldl_andi_ones _ (fun i => ?_) _
  obtain ⟨p, u, rfl⟩ : ∃ (p : Fin 64) (u : Fin 1), i = ix2 p u := ⟨i 0, i 1, eq_ix2 i⟩
  show IntOp.andi (IntOp.cmpi .sge (colC (iotaInDim S64 32 0) (ix2 p u)) 0#32)
    (IntOp.cmpi .sle (colC (iotaInDim S64 32 0) (ix2 p u)) 63#32) = 1#1
  rw [colC_iota]
  have hp : p.val < 64 := p.isLt
  have hq : (BitVec.ofNat 32 p.val).toNat = p.val := toNat_small _ (by omega)
  refine IntOp.andi_eq_one.2 ⟨(Predicate.sge_iff_toNat (by rw [hq]; omega) (by decide)).2 (Nat.zero_le _),
    (Predicate.sle_iff_toNat (by rw [hq]; omega) (by decide)).2 ?_⟩
  rw [hq]
  show p.val ≤ 63
  omega

/-- The channel table looked up at the channel numbers is the channel table. -/
theorem takeC_iota (tbl : FVec Ideal S64x1024 .f32) (r : Fin 64) (j : Fin 1024) :
    takeC tbl (iotaInDim S64 32 0) (ix2 r j) = tbl (ix2 r j) := by
  unfold takeC
  rw [select_apply,
    broadcastInDim_apply ![0] bcast_S64_S64x1024_0 _ (ix2 r j) (ix1 r) (fun ax => match ax with | ⟨0, _⟩ => rfl),
    inRangeC_iota, select_one]
  show Host.gather (Cert.LibGatherRows.rowTakeDims 64 1024 64 gather_S64x1024_S64x1_S64x1024_1_0_n_n_0_1_11024_wf) tbl
      (colC (iotaInDim S64 32 0)) (ix2 r j) = _
  rw [Cert.LibGatherRows.gather_rows_apply (by decide)]
  refine congrArg (fun p : Fin 64 => tbl (ix2 p j)) (Fin.ext ?_)
  show min (colC (iotaInDim S64 32 0) (ix2 r (0 : Fin 1))).toInt.toNat (64 - 1) = r.val
  rw [colC_iota, Predicate.toInt_ofNat_small _ (by have := r.isLt; omega)]
  have := r.isLt
  omega

/-! ## The time table's lookup: 512 rows -/

/-- A row number made non-negative. -/
def wrapT (ids : IVec S512 32) : IVec S512 32 :=
  select (cmpi .slt ids (broadcastInDim S512 ![] bcast_S_S512 (constantI S_ 32 0#32)))
    (addi ids (broadcastInDim S512 ![] bcast_S_S512 (constantI S_ 32 512#32))) ids

/-- The row numbers as a column of start indices. -/
def colT (ids : IVec S512 32) : IVec S512x1 32 := broadcastInDim S512x1 ![0] bcast_S512_S512x1_0 (wrapT ids)

/-- Per row: is its number in the table's range. -/
def inRangeT (ids : IVec S512 32) : IVec S512 1 :=
  Host.reduce IntOp.andi
    (andi (cmpi .sge (colT ids) (broadcastInDim S512x1 ![] bcast_S_S512x1 (constantI S_ 32 0#32)))
      (cmpi .sle (colT ids) (broadcastInDim S512x1 ![0, 1] bcast_S1x1_S512x1_0_1 (broadcastInDim S1x1 ![1] bcast_S1_S1x1_1 (constantI S1 32 511#32)))))
    (constantI S_ 1 1#1) reducesTo_S512x1_S512_d1 h_S_

/-- The lookup: the gathered rows where in range, the not-a-number word elsewhere. -/
def takeT (tbl : FVec Ideal S512x1024 .f32) (ids : IVec S512 32) : FVec Ideal S512x1024 .f32 :=
  select (broadcastInDim S512x1024 ![0] bcast_S512_S512x1024_0 (inRangeT ids))
    (Host.gather gather_S512x1024_S512x1_S512x1024_1_0_n_n_0_1_11024 tbl (colT ids))
    (broadcastInDim S512x1024 ![] bcast_S_S512x1024 (constant S_ .f32 0x7FC00000#32))

theorem wrapT_iota (q : Fin 512) : wrapT (iotaInDim S512 32 0) (ix1 q) = BitVec.ofNat 32 q.val := by
  unfold wrapT
  rw [select_apply]
  have hneg : cmpi .slt (iotaInDim S512 32 0) (broadcastInDim S512 ![] bcast_S_S512 (constantI S_ 32 0#32)) (ix1 q) = 0#1 := by
    show IntOp.cmpi .slt (BitVec.ofNat 32 q.val) 0#32 = 0#1
    refine eq_zero_of_ne_one fun h => ?_
    have hq : (BitVec.ofNat 32 q.val).toNat < 2 ^ 31 := by rw [toNat_small _ (by have := q.isLt; omega)]; have := q.isLt; omega
    exact Nat.not_lt_zero _ ((Predicate.slt_iff_toNat hq (by decide)).1 h)
  rw [hneg, select_zero]
  rfl

theorem colT_iota (q : Fin 512) (u : Fin 1) : colT (iotaInDim S512 32 0) (ix2 q u) = BitVec.ofNat 32 q.val := by
  unfold colT
  rw [broadcastInDim_apply ![0] bcast_S512_S512x1_0 _ (ix2 q u) (ix1 q) (fun ax => match ax with | ⟨0, _⟩ => rfl)]
  exact wrapT_iota q

theorem inRangeT_iota (q : Fin 512) : inRangeT (iotaInDim S512 32 0) (ix1 q) = 1#1 := by
  unfold inRangeT
  rw [Host.reduce_eq_foldl]
  refine foldl_andi_ones _ (fun i => ?_) _
  obtain ⟨p, u, rfl⟩ : ∃ (p : Fin 512) (u : Fin 1), i = ix2 p u := ⟨i 0, i 1, eq_ix2 i⟩
  show IntOp.andi (IntOp.cmpi .sge (colT (iotaInDim S512 32 0) (ix2 p u)) 0#32)
    (IntOp.cmpi .sle (colT (iotaInDim S512 32 0) (ix2 p u)) 511#32) = 1#1
  rw [colT_iota]
  have hp : p.val < 512 := p.isLt
  have hq : (BitVec.ofNat 32 p.val).toNat = p.val := toNat_small _ (by omega)
  refine IntOp.andi_eq_one.2 ⟨(Predicate.sge_iff_toNat (by rw [hq]; omega) (by decide)).2 (Nat.zero_le _),
    (Predicate.sle_iff_toNat (by rw [hq]; omega) (by decide)).2 ?_⟩
  rw [hq]
  show p.val ≤ 511
  omega

/-- The time table looked up at the time numbers is the time table. -/
theorem takeT_iota (tbl : FVec Ideal S512x1024 .f32) (r : Fin 512) (j : Fin 1024) :
    takeT tbl (iotaInDim S512 32 0) (ix2 r j) = tbl (ix2 r j) := by
  unfold takeT
  rw [select_apply,
    broadcastInDim_apply ![0] bcast_S512_S512x1024_0 _ (ix2 r j) (ix1 r) (fun ax => match ax with | ⟨0, _⟩ => rfl),
    inRangeT_iota, select_one]
  show Host.gather (Cert.LibGatherRows.rowTakeDims 512 1024 512 gather_S512x1024_S512x1_S512x1024_1_0_n_n_0_1_11024_wf) tbl
      (colT (iotaInDim S512 32 0)) (ix2 r j) = _
  rw [Cert.LibGatherRows.gather_rows_apply (by decide)]
  refine congrArg (fun p : Fin 512 => tbl (ix2 p j)) (Fin.ext ?_)
  show min (colT (iotaInDim S512 32 0) (ix2 r (0 : Fin 1))).toInt.toNat (512 - 1) = r.val
  rw [colT_iota, Predicate.toInt_ofNat_small _ (by have := r.isLt; omega)]
  have := r.isLt
  omega

end Cert.ReferenceIdeal.Lookup

end
-- ==== Proof.RefWhole.lean ====
/-
  The reference's result as one term of the argument arrays, and its value at an index.

  The straight line of 70 operations composes to: the projection plus the broadcast bias, plus the looked-up channel
  rows scaled by alpha_c and broadcast over batch and time, plus the looked-up time rows scaled by alpha_t and
  broadcast over batch and channel; then the channel and time axes are exchanged and (time, channel) flattened. At
  (b, t*64 + c, o) that is ((sum_k x[b,c,t,k] * W[o,k] + bias[o]) + chan[c,o] * alpha_c) + time[t,o] * alpha_t, which
  is the common formula's entry by the regrouping law.
-/
import proofs.«124523_g64484638982276_cont_9to1_m_834_26_alg».proof.Proof.RefLine
import proofs.«124523_g64484638982276_cont_9to1_m_834_26_alg».proof.Proof.RefLookup
import proofs.«124523_g64484638982276_cont_9to1_m_834_26_alg».proof.Proof.Formula
import Idealize.ShloMosaic.PureOps.Ideal.Laws
import Idealize.ShloMosaic.Lib.Pipeline.Value
import Idealize.ShloMosaic.Lib.ValueIdx

noncomputable section

namespace Cert.ReferenceIdeal.Whole

open Cert.ReferenceIdeal Cert.ReferenceIdeal.Gen Idealize.ShloMosaic Idealize.ShloMosaic.TcCoe Idealize.SL.Sem
open Idealize.ShloMosaic.StableHlo Idealize.ShloMosaic.ValueIdx
open Cert.ReferenceIdeal.Line Cert.ReferenceIdeal.Lookup

/-! ## The composed term -/

/-- Projection, bias, scaled channel rows and scaled time rows, added in the reference's order, before the exchange
    of axes: indexed (batch, channel, time, feature). -/
def summed (x : FVec Ideal S4x64x512x512 .f32) (W : FVec Ideal S1024x512 .f32) (bias : FVec Ideal S1024 .f32)
    (chan : FVec Ideal S64x1024 .f32) (time : FVec Ideal S512x1024 .f32) (gc gt : FVec Ideal S1 .f32) : FVec Ideal S4x64x512x1024 .f32 :=
  addf
    (addf
      (addf (Host.dotGeneral dot_S4x64x512x512_S1024x512_S4x64x512x1024_3_1_012_0_n_n none x W)
        (broadcastInDim S4x64x512x1024 ![0, 1, 2, 3] bcast_S1x1x1x1024_S4x64x512x1024_0_1_2_3
          (broadcastInDim S1x1x1x1024 ![3] bcast_S1024_S1x1x1x1024_3 bias)))
      (broadcastInDim S4x64x512x1024 ![0, 1, 2, 3] bcast_S1x64x1x1024_S4x64x512x1024_0_1_2_3
        (mulf (broadcastInDim S1x64x1x1024 ![1, 3] bcast_S64x1024_S1x64x1x1024_1_3 (takeC chan (iotaInDim S64 32 0)))
          (broadcastInDim S1x64x1x1024 ![0, 1, 2, 3] bcast_S1x1x1x1_S1x64x1x1024_0_1_2_3
            (broadcastInDim S1x1x1x1 ![3] bcast_S1_S1x1x1x1_3 gc)))))
    (broadcastInDim S4x64x512x1024 ![0, 1, 2, 3] bcast_S1x1x512x1024_S4x64x512x1024_0_1_2_3
      (mulf (broadcastInDim S1x1x512x1024 ![2, 3] bcast_S512x1024_S1x1x512x1024_2_3 (takeT time (iotaInDim S512 32 0)))
        (broadcastInDim S1x1x512x1024 ![0, 1, 2, 3] bcast_S1x1x1x1_S1x1x512x1024_0_1_2_3
          (broadcastInDim S1x1x1x1 ![3] bcast_S1_S1x1x1x1_3 gt))))

/-- The reference's result: the sum with channel and time exchanged and (time, channel) flattened. -/
def whole (x : FVec Ideal S4x64x512x512 .f32) (W : FVec Ideal S1024x512 .f32) (bias : FVec Ideal S1024 .f32)
    (chan : FVec Ideal S64x1024 .f32) (time : FVec Ideal S512x1024 .f32) (gc gt : FVec Ideal S1 .f32) : FVec Ideal S4x32768x1024 .f32 :=
  shapeCast S4x32768x1024
    (transpose S4x512x64x1024 [0, 2, 1, 3] (summed x W bias chan time gc gt) transposes_S4x64x512x1024_S4x512x64x1024_0_2_1_3)
    shapeCasts_S4x512x64x1024_S4x32768x1024

/-! ## The straight line's fold at the result and at the arguments -/

attribute [local irreducible] Host.reduce Host.gather in
set_option maxRecDepth 8192 in
set_option maxHeartbeats 1000000 in
/-- The 70 operations' fold at the result buffer is the composed term of the fold's start at the arguments. -/
theorem out_eq (V : Valuation τ sig (Elt Ideal)) :
    after ops V (main_v21 : DevRef τ sig)
      = whole (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

set_option maxRecDepth 8192 in
set_option maxHeartbeats 1000000 in
/-- No operation writes an argument. -/
theorem args_eq (V : Valuation τ sig (Elt Ideal)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig) := by
  refine ⟨?_, ?_, ?_, ?_, ?_, ?_, ?_⟩ <;> after_results_simp

/-! ## The projection at an index -/

theorem proj_lhs_0 (i : S4x64x512x1024.Idx) (q : dot_S4x64x512x512_S1024x512_S4x64x512x1024_3_1_012_0_n_n.contr.Idx) : (dot_S4x64x512x512_S1024x512_S4x64x512x1024_3_1_012_0_n_n.lhsIdx i q 0).val = (i 0).val := by
  unfold DotDims.lhsIdx
  rw [dif_neg (show ¬(0 : Fin S4x64x512x512.rank) ∈ dot_S4x64x512x512_S1024x512_S4x64x512x1024_3_1_012_0_n_n.lhsBatch by decide),
    dif_pos (show (0 : Fin S4x64x512x512.rank) ∈ dot_S4x64x512x512_S1024x512_S4x64x512x1024_3_1_012_0_n_n.lhsNonContracting by decide)]
  rfl
theorem proj_lhs_1 (i : S4x64x512x1024.Idx) (q : dot_S4x64x512x512_S1024x512_S4x64x512x1024_3_1_012_0_n_n.contr.Idx) : (dot_S4x64x512x512_S1024x512_S4x64x512x1024_3_1_012_0_n_n.lhsIdx i q 1).val = (i 1).val := by
  unfold DotDims.lhsIdx
  rw [dif_neg (show ¬(1 : Fin S4x64x512x512.rank) ∈ dot_S4x64x512x512_S1024x512_S4x64x512x1024_3_1_012_0_n_n.lhsBatch by decide),
    dif_pos (show (1 : Fin S4x64x512x512.rank) ∈ dot_S4x64x512x512_S1024x512_S4x64x512x1024_3_1_012_0_n_n.lhsNonContracting by decide)]
  rfl
theorem proj_lhs_2 (i : S4x64x512x1024.Idx) (q : dot_S4x64x512x512_S1024x512_S4x64x512x1024_3_1_012_0_n_n.contr.Idx) : (dot_S4x64x512x512_S1024x512_S4x64x512x1024_3_1_012_0_n_n.lhsIdx i q 2).val = (i 2).val := by
  unfold DotDims.lhsIdx
  rw [dif_neg (show ¬(2 : Fin S4x64x512x512.rank) ∈ dot_S4x64x512x512_S1024x512_S4x64x512x1024_3_1_012_0_n_n.lhsBatch by decide),
    dif_pos (show (2 : Fin S4x64x512x512.rank) ∈ dot_S4x64x512x512_S1024x512_S4x64x512x1024_3_1_012_0_n_n.lhsNonContracting by decide)]
  rfl
theorem proj_lhs_3 (i : S4x64x512x1024.Idx) (q : dot_S4x64x512x512_S1024x512_S4x64x512x1024_3_1_012_0_n_n.contr.Idx) : (dot_S4x64x512x512_S1024x512_S4x64x512x1024_3_1_012_0_n_n.lhsIdx i q 3).val = (q ⟨0, by decide⟩).val :=
  dot_S4x64x512x512_S1024x512_S4x64x512x1024_3_1_012_0_n_n.lhsIdx_val_of_single rfl i q
theorem proj_rhs_0 (i : S4x64x512x1024.Idx) (q : dot_S4x64x512x512_S1024x512_S4x64x512x1024_3_1_012_0_n_n.contr.Idx) : (dot_S4x64x512x512_S1024x512_S4x64x512x1024_3_1_012_0_n_n.rhsIdx i q 0).val = (i 3).val := by
  unfold DotDims.rhsIdx
  rw [dif_neg (show ¬(0 : Fin S1024x512.rank) ∈ dot_S4x64x512x512_S1024x512_S4x64x512x1024_3_1_012_0_n_n.rhsBatch by decide),
    dif_pos (show (0 : Fin S1024x512.rank) ∈ dot_S4x64x512x512_S1024x512_S4x64x512x1024_3_1_012_0_n_n.rhsNonContracting by decide)]
  rfl
theorem proj_rhs_1 (i : S4x64x512x1024.Idx) (q : dot_S4x64x512x512_S1024x512_S4x64x512x1024_3_1_012_0_n_n.contr.Idx) : (dot_S4x64x512x512_S1024x512_S4x64x512x1024_3_1_012_0_n_n.rhsIdx i q 1).val = (q ⟨0, by decide⟩).val :=
  dot_S4x64x512x512_S1024x512_S4x64x512x1024_3_1_012_0_n_n.rhsIdx_val_of_single rfl i q

/-- The host's contraction of the feature axes, at (b, c, t, o): the common formula's projection. -/
theorem projection_apply (x : FVec Ideal S4x64x512x512 .f32) (W : FVec Ideal S1024x512 .f32)
    (b : Fin 4) (c : Fin 64) (t : Fin 512) (o : Fin 1024) :
    Host.dotGeneral dot_S4x64x512x512_S1024x512_S4x64x512x1024_3_1_012_0_n_n none x W (ix4 b c t o) = Cert.Formula.proj x W b c t o := by
  unfold Cert.Formula.proj
  simp only [Host.dotGeneral]
  rw [Ideal.dotGeneral_apply, ← Equiv.sum_comp (contrEquiv1 dot_S4x64x512x512_S1024x512_S4x64x512x1024_3_1_012_0_n_n 512 rfl rfl).symm]
  refine Finset.sum_congr rfl fun k _ => ?_
  have hk := contrEquiv1_symm_val dot_S4x64x512x512_S1024x512_S4x64x512x1024_3_1_012_0_n_n 512 rfl rfl k
  have el : dot_S4x64x512x512_S1024x512_S4x64x512x1024_3_1_012_0_n_n.lhsIdx (ix4 b c t o) ((contrEquiv1 dot_S4x64x512x512_S1024x512_S4x64x512x1024_3_1_012_0_n_n 512 rfl rfl).symm k) = ix4 b c t k :=
    funext fun ax => Fin.ext (by
      match ax with
      | ⟨0, _⟩ => exact proj_lhs_0 _ _
      | ⟨1, _⟩ => exact proj_lhs_1 _ _
      | ⟨2, _⟩ => exact proj_lhs_2 _ _
      | ⟨3, _⟩ => exact (proj_lhs_3 _ _).trans hk)
  have er : dot_S4x64x512x512_S1024x512_S4x64x512x1024_3_1_012_0_n_n.rhsIdx (ix4 b c t o) ((contrEquiv1 dot_S4x64x512x512_S1024x512_S4x64x512x1024_3_1_012_0_n_n 512 rfl rfl).symm k) = ix2 o k :=
    funext fun ax => Fin.ext (by
      match ax with
      | ⟨0, _⟩ => exact proj_rhs_0 _ _
      | ⟨1, _⟩ => exact (proj_rhs_1 _ _).trans hk)
  rw [el, er]

/-! ## The sum and the result at an index -/

/-- The gain alpha_c spread over the channel rows reads its one element everywhere. -/
theorem gainC_apply (g : FVec Ideal S1 .f32) (c : Fin 64) (o : Fin 1024) :
    broadcastInDim S1x64x1x1024 ![0, 1, 2, 3] bcast_S1x1x1x1_S1x64x1x1024_0_1_2_3
        (broadcastInDim S1x1x1x1 ![3] bcast_S1_S1x1x1x1_3 g) (ix4 (0 : Fin 1) c (0 : Fin 1) o)
      = g (ix1 (0 : Fin 1)) := by
  rw [broadcastInDim_apply ![0, 1, 2, 3] bcast_S1x1x1x1_S1x64x1x1024_0_1_2_3 _ (ix4 (0 : Fin 1) c (0 : Fin 1) o)
      (ix4 (0 : Fin 1) (0 : Fin 1) (0 : Fin 1) (0 : Fin 1))
      (fun ax => match ax with | ⟨0, _⟩ => rfl | ⟨1, _⟩ => rfl | ⟨2, _⟩ => rfl | ⟨3, _⟩ => rfl),
    broadcastInDim_apply ![3] bcast_S1_S1x1x1x1_3 g (ix4 (0 : Fin 1) (0 : Fin 1) (0 : Fin 1) (0 : Fin 1)) (ix1 (0 : Fin 1))
      (fun ax => match ax with | ⟨0, _⟩ => rfl)]

/-- The gain alpha_t spread over the time rows reads its one element everywhere. -/
theorem gainT_apply (g : FVec Ideal S1 .f32) (t : Fin 512) (o : Fin 1024) :
    broadcastInDim S1x1x512x1024 ![0, 1, 2, 3] bcast_S1x1x1x1_S1x1x512x1024_0_1_2_3
        (broadcastInDim S1x1x1x1 ![3] bcast_S1_S1x1x1x1_3 g) (ix4 (0 : Fin 1) (0 : Fin 1) t o)
      = g (ix1 (0 : Fin 1)) := by
  rw [broadcastInDim_apply ![0, 1, 2, 3] bcast_S1x1x1x1_S1x1x512x1024_0_1_2_3 _ (ix4 (0 : Fin 1) (0 : Fin 1) t o)
      (ix4 (0 : Fin 1) (0 : Fin 1) (0 : Fin 1) (0 : Fin 1))
      (fun ax => match ax with | ⟨0, _⟩ => rfl | ⟨1, _⟩ => rfl | ⟨2, _⟩ => rfl | ⟨3, _⟩ => rfl),
    broadcastInDim_apply ![3] bcast_S1_S1x1x1x1_3 g (ix4 (0 : Fin 1) (0 : Fin 1) (0 : Fin 1) (0 : Fin 1)) (ix1 (0 : Fin 1))
      (fun ax => match ax with | ⟨0, _⟩ => rfl)]

theorem summed_apply (x : FVec Ideal S4x64x512x512 .f32) (W : FVec Ideal S1024x512 .f32) (bias : FVec Ideal S1024 .f32)
    (chan : FVec Ideal S64x1024 .f32) (time : FVec Ideal S512x1024 .f32) (gc gt : FVec Ideal S1 .f32)
    (b : Fin 4) (c : Fin 64) (t : Fin 512) (o : Fin 1024) :
    summed x W bias chan time gc gt (ix4 b c t o)
      = ((Cert.Formula.proj x W b c t o + bias (ix1 o)) + chan (ix2 c o) * gc (ix1 (0 : Fin 1)))
        + time (ix2 t o) * gt (ix1 (0 : Fin 1)) := by
  unfold summed
  rw [addf_apply, addf_apply, addf_apply, projection_apply,
    -- the bias along the feature axis
    broadcastInDim_apply ![0, 1, 2, 3] bcast_S1x1x1x1024_S4x64x512x1024_0_1_2_3 _ (ix4 b c t o)
      (ix4 (0 : Fin 1) (0 : Fin 1) (0 : Fin 1) o)
      (fun ax => match ax with | ⟨0, _⟩ => rfl | ⟨1, _⟩ => rfl | ⟨2, _⟩ => rfl | ⟨3, _⟩ => rfl),
    broadcastInDim_apply ![3] bcast_S1024_S1x1x1x1024_3 bias (ix4 (0 : Fin 1) (0 : Fin 1) (0 : Fin 1) o) (ix1 o)
      (fun ax => match ax with | ⟨0, _⟩ => rfl),
    -- the scaled channel rows over batch and time
    broadcastInDim_apply ![0, 1, 2, 3] bcast_S1x64x1x1024_S4x64x512x1024_0_1_2_3 _ (ix4 b c t o)
      (ix4 (0 : Fin 1) c (0 : Fin 1) o)
      (fun ax => match ax with | ⟨0, _⟩ => rfl | ⟨1, _⟩ => rfl | ⟨2, _⟩ => rfl | ⟨3, _⟩ => rfl),
    mulf_apply,
    broadcastInDim_apply ![1, 3] bcast_S64x1024_S1x64x1x1024_1_3 _ (ix4 (0 : Fin 1) c (0 : Fin 1) o) (ix2 c o)
      (fun ax => match ax with | ⟨0, _⟩ => rfl | ⟨1, _⟩ => rfl),
    takeC_iota, gainC_apply,
    -- the scaled time rows over batch and channel
    broadcastInDim_apply ![0, 1, 2, 3] bcast_S1x1x512x1024_S4x64x512x1024_0_1_2_3 _ (ix4 b c t o)
      (ix4 (0 : Fin 1) (0 : Fin 1) t o)
      (fun ax => match ax with | ⟨0, _⟩ => rfl | ⟨1, _⟩ => rfl | ⟨2, _⟩ => rfl | ⟨3, _⟩ => rfl),
    mulf_apply,
    broadcastInDim_apply ![2, 3] bcast_S512x1024_S1x1x512x1024_2_3 _ (ix4 (0 : Fin 1) (0 : Fin 1) t o) (ix2 t o)
      (fun ax => match ax with | ⟨0, _⟩ => rfl | ⟨1, _⟩ => rfl),
    takeT_iota, gainT_apply]

/-- The reference's composed term is the common formula. -/
theorem whole_eq (x : FVec Ideal S4x64x512x512 .f32) (W : FVec Ideal S1024x512 .f32) (bias : FVec Ideal S1024 .f32)
    (chan : FVec Ideal S64x1024 .f32) (time : FVec Ideal S512x1024 .f32) (gc gt : FVec Ideal S1 .f32) :
    whole x W bias chan time gc gt = Cert.Formula.result x W bias chan time gc gt := by
  funext i
  obtain ⟨b, n, o, rfl⟩ : ∃ (b : Fin 4) (n : Fin 32768) (o : Fin 1024), i = ix3 b n o := ⟨i 0, i 1, i 2, eq_ix3 i⟩
  have hn : n.val < 32768 := n.isLt
  unfold whole
  rw [shapeCast_apply _ shapeCasts_S4x512x64x1024_S4x32768x1024 (ix3 b n o)
      (ix4 b (⟨n.val / 64, by omega⟩ : Fin 512) (⟨n.val % 64, Nat.mod_lt _ (by decide)⟩ : Fin 64) o) (by
        rw [Shape.rowMajor_val_four, Shape.rowMajor_val_three]
        show ((b.val * 512 + n.val / 64) * 64 + n.val % 64) * 1024 + o.val = (b.val * 32768 + n.val) * 1024 + o.val
        omega),
    transpose_apply [0, 2, 1, 3] _ transposes_S4x64x512x1024_S4x512x64x1024_0_2_1_3
      (ix4 b (⟨n.val / 64, by omega⟩ : Fin 512) (⟨n.val % 64, Nat.mod_lt _ (by decide)⟩ : Fin 64) o)
      (ix4 b (⟨n.val % 64, Nat.mod_lt _ (by decide)⟩ : Fin 64) (⟨n.val / 64, by omega⟩ : Fin 512) o)
      (fun ax => match ax with | ⟨0, _⟩ => rfl | ⟨1, _⟩ => rfl | ⟨2, _⟩ => rfl | ⟨3, _⟩ => rfl),
    summed_apply]
  exact Cert.Formula.entry_of_reference_order x W bias chan time gc gt b _ _ o

/-! ## The run -/

/-- Every weakly fair execution of the reference terminates with the result buffer at the common formula of the
    launch arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
        = Cert.Formula.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have ha := args_eq (launchContents m c)
    ⟨(h c main_v21).trans ((out_eq (launchContents m c)).trans (whole_eq _ _ _ _ _ _ _)),
      (h c main_arg0).trans ha.1, (h c main_arg1).trans ha.2.1, (h c main_arg2).trans ha.2.2.1,
      (h c main_arg3).trans ha.2.2.2.1, (h c main_arg4).trans ha.2.2.2.2.1, (h c main_arg5).trans ha.2.2.2.2.2.1,
      (h c main_arg6).trans ha.2.2.2.2.2.2⟩)
    (run_line m ρ)

end Cert.ReferenceIdeal.Whole

end
-- ==== Proof.lean ====
/-
  A projection with channel and time embeddings, computed block by block on the TensorCore, against its plain
  jnp reference.

  Both programs take x (batch 4, channel 64, time 512, feature 512), a weight W (1024 x 512), a bias, a channel
  table (64 x 1024), a time table (512 x 1024) and two gains alpha_c, alpha_t, and return the array whose entry
  at (b, t*64 + c, o) is
      sum_k x[b,c,t,k] * W[o,k] + bias[o] + alpha_c * chan[c,o] + alpha_t * time[t,o].
  The reference projects with one contraction, looks the two tables up at the row numbers 0, 1, 2, ... (which
  returns the tables), scales and adds them in the order bias, channel, time, exchanges the channel and time axes
  and flattens them. The kernel transposes the weight, folds alpha_c into the channel table and the bias and alpha_t
  into the time table before the launch, and in each of 32 grid steps multiplies a (64 time steps x 64 channels) x 512
  block by the weight, adds the time rows and the channel rows, and writes 64 rows of the output; a reshape
  flattens the result. Over the extended reals the two sums differ only in the order and grouping of three additions
  and in the order of two products, so they agree for all inputs (Proof/Formula.lean); no finiteness is used.

  The kernel's frames are the generated ones. The reference's run is its 70 operations as a straight line
  (Proof/RefLine.lean), read back as the common formula (Proof/RefLookup.lean, Proof/RefWhole.lean); the kernel's
  output array is read off its frame run block by block (Proof/KernelStep.lean, Proof/KernelTables.lean,
  Proof/KernelWhole.lean).
-/
import proofs.«124523_g64484638982276_cont_9to1_m_834_26_alg».proof.Defs
import proofs.«124523_g64484638982276_cont_9to1_m_834_26_alg».proof.Proof.Gen.Kernel
import proofs.«124523_g64484638982276_cont_9to1_m_834_26_alg».proof.Proof.Gen.Kernel.Frame
import proofs.«124523_g64484638982276_cont_9to1_m_834_26_alg».proof.Proof.Gen.KernelIdeal
import proofs.«124523_g64484638982276_cont_9to1_m_834_26_alg».proof.Proof.Gen.KernelIdeal.Frame
import proofs.«124523_g64484638982276_cont_9to1_m_834_26_alg».proof.Proof.Gen.ReferenceIdeal
import proofs.«124523_g64484638982276_cont_9to1_m_834_26_alg».proof.Proof.Gen.Pre_finite_inputs
import proofs.«124523_g64484638982276_cont_9to1_m_834_26_alg».proof.Proof.KernelWhole
import proofs.«124523_g64484638982276_cont_9to1_m_834_26_alg».proof.Proof.RefWhole
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its straight-line run with the result dropped. -/
theorem frame_referenceIdeal : Cert.frame_ReferenceIdeal := fun m ρ _ =>
  (θ_run Cert.ReferenceIdeal.defs _ _).mono (fun _ h c => (h c).2) (Cert.ReferenceIdeal.Whole.run m ρ)

/-- The idealization rewrote nothing. -/
theorem preserves : Cert.preserves_Kernel_KernelIdeal := trivial

/-- From memories that agree on the arguments both programs end with the common formula of those arguments in
    their result buffers. -/
theorem algebraic : Cert.algebraic_KernelIdeal_ReferenceIdeal := by
  intro m ρ m' ρ' _ hagree
  refine ⟨fun c => Cert.KernelIdeal.Whole.resultOf m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
